-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x23x512x512 : Shape := ⟨4, ![8, 23, 512, 512]⟩
abbrev S8x1x512x512 : Shape := ⟨4, ![8, 1, 512, 512]⟩
abbrev S_ : Shape := ⟨0, ![]⟩

class Facts : Prop where
  bcast_S_S8x23x512x512 : S_.BroadcastsInDim S8x23x512x512 (![] : Fin 0 → Fin S8x23x512x512.rank)
  reducesTo_S8x23x512x512_S_d0_1_2_3 : S8x23x512x512.ReducesTo [0, 1, 2, 3] S_
  h_S_ : 0 < S_.numel
  bcast_S_S8x1x512x512 : S_.BroadcastsInDim S8x1x512x512 (![] : Fin 0 → Fin S8x1x512x512.rank)
  reducesTo_S8x1x512x512_S_d0_1_2_3 : S8x1x512x512.ReducesTo [0, 1, 2, 3] S_

variable [Facts]

def fn {F : FTy → Type} [FloatOps F] (main_arg0 : FVec F S8x23x512x512 .f32) (main_arg1 : IVec S8x1x512x512 32) : IVec S_ 1 :=
  let main_v0 : FVec F S8x23x512x512 .f32 := Host.absf main_arg0
  let main_cst : FVec F S_ .f32 := constant S_ .f32 0x7F800000#32
  let main_v1 : FVec F S8x23x512x512 .f32 := broadcastInDim S8x23x512x512 ![] bcast_S_S8x23x512x512 main_cst
  let main_v2 : IVec S8x23x512x512 1 := cmpf .olt main_v0 main_v1
  let main_c : IVec S_ 1 := constantI S_ 1 1#1
  let main_v3 : IVec S_ 1 := (fun x v => Host.reduce IntOp.andi x v reducesTo_S8x23x512x512_S_d0_1_2_3 h_S_) main_v2 main_c
  let main_c_0 : IVec S_ 32 := constantI S_ 32 0#32
  let main_v4 : IVec S8x1x512x512 32 := broadcastInDim S8x1x512x512 ![] bcast_S_S8x1x512x512 main_c_0
  let main_v5 : IVec S8x1x512x512 1 := cmpi .sge main_arg1 main_v4
  let main_c_1 : IVec S_ 32 := constantI S_ 32 23#32
  let main_v6 : IVec S8x1x512x512 32 := broadcastInDim S8x1x512x512 ![] bcast_S_S8x1x512x512 main_c_1
  let main_v7 : IVec S8x1x512x512 1 := cmpi .slt main_arg1 main_v6
  let main_v8 : IVec S8x1x512x512 1 := andi main_v5 main_v7
  let main_c_2 : IVec S_ 1 := constantI S_ 1 1#1
  let main_v9 : IVec S_ 1 := (fun x v => Host.reduce IntOp.andi x v reducesTo_S8x1x512x512_S_d0_1_2_3 h_S_) main_v8 main_c_2
  let main_v10 : IVec S_ 1 := andi main_v3 main_v9
  main_v10
-- ==== Kernel.lean ====
abbrev S8x23x512x512 : Shape := ⟨4, ![8, 23, 512, 512]⟩
abbrev S8x1x512x512 : Shape := ⟨4, ![8, 1, 512, 512]⟩
abbrev S8x512x512 : Shape := ⟨3, ![8, 512, 512]⟩
abbrev S8x4x23 : Shape := ⟨3, ![8, 4, 23]⟩
abbrev S1x23x128x512 : Shape := ⟨4, ![1, 23, 128, 512]⟩
abbrev S1x1x128x512 : Shape := ⟨4, ![1, 1, 128, 512]⟩
abbrev S1x4x23 : Shape := ⟨3, ![1, 4, 23]⟩
abbrev S4x23 : Shape := ⟨2, ![4, 23]⟩
abbrev S23x128x512 : Shape := ⟨3, ![23, 128, 512]⟩
abbrev S128x512 : Shape := ⟨2, ![128, 512]⟩
abbrev S1x128x512 : Shape := ⟨3, ![1, 128, 512]⟩
abbrev S23x1x1 : Shape := ⟨3, ![23, 1, 1]⟩
abbrev S23x128 : Shape := ⟨2, ![23, 128]⟩
abbrev S23 : Shape := ⟨1, ![23]⟩
abbrev S1x23 : Shape := ⟨2, ![1, 23]⟩
abbrev S_ : Shape := ⟨0, ![]⟩

abbrev nBuf : Space → Nat
  | .hbm => 43
  | .vmem => 6
  | .smem => 0
  | _ => 0

abbrev bufTy : (tb : Table) → Fin (tcTables nBuf tb) → BufTy
  | .hbm, ⟨0, _⟩ => ⟨S8x23x512x512, .f32⟩
  | .hbm, ⟨1, _⟩ => ⟨S8x1x512x512, .i32⟩
  | .hbm, ⟨2, _⟩ => ⟨S8x512x512, .i32⟩
  | .hbm, ⟨3, _⟩ => ⟨S8x1x512x512, .i32⟩
  | .hbm, ⟨4, _⟩ => ⟨S8x4x23, .f32⟩
  | .hbm, ⟨5, _⟩ => ⟨S_, .f32⟩
  | .hbm, ⟨6, _⟩ => ⟨S4x23, .f32⟩
  | .hbm, ⟨7, _⟩ => ⟨S1x23, .f32⟩
  | .hbm, ⟨8, _⟩ => ⟨S23, .f32⟩
  | .hbm, ⟨9, _⟩ => ⟨S1x23, .f32⟩
  | .hbm, ⟨10, _⟩ => ⟨S23, .f32⟩
  | .hbm, ⟨11, _⟩ => ⟨S1x23, .f32⟩
  | .hbm, ⟨12, _⟩ => ⟨S23, .f32⟩
  | .hbm, ⟨13, _⟩ => ⟨S1x23, .f32⟩
  | .hbm, ⟨14, _⟩ => ⟨S23, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S23, .f32⟩
  | .hbm, ⟨19, _⟩ => ⟨S23, .f32⟩
  | .hbm, ⟨20, _⟩ => ⟨S_, .f32⟩
  | .hbm, ⟨21, _⟩ => ⟨S23, .f32⟩
  | .hbm, ⟨22, _⟩ => ⟨S23, .f32⟩
  | .hbm, ⟨23, _⟩ => ⟨S23, .f32⟩
  | .hbm, ⟨24, _⟩ => ⟨S_, .f32⟩
  | .hbm, ⟨25, _⟩ => ⟨S23, .f32⟩
  | .hbm, ⟨26, _⟩ => ⟨S23, .f32⟩
  | .hbm, ⟨27, _⟩ => ⟨S23, .f32⟩
  | .hbm, ⟨28, _⟩ => ⟨S_, .f32⟩
  | .hbm, ⟨29, _⟩ => ⟨S23, .f32⟩
  | .hbm, ⟨30, _⟩ => ⟨S23, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x23x128x512, .f32⟩
  | .local _ .vmem, ⟨1, _⟩ => ⟨S1x23x128x512, .f32⟩
  | .local _ .vmem, ⟨2, _⟩ => ⟨S1x1x128x512, .i32⟩
  | .local _ .vmem, ⟨3, _⟩ => ⟨S1x1x128x512, .i32⟩
  | .local _ .vmem, ⟨4, _⟩ => ⟨S1x4x23, .f32⟩
  | .local _ .vmem, ⟨5, _⟩ => ⟨S1x4x23, .f32⟩
  | _, _ => ⟨S8x23x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x23x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x23 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x1x512x512_S8x512x512 : S8x1x512x512.ShapeCasts S8x512x512
  bcast_S8x512x512_S8x1x512x512_0_2_3 : S8x512x512.BroadcastsInDim S8x1x512x512 (![0, 2, 3] : Fin 3 → Fin S8x1x512x512.rank)
  inb_S1x4x23_S1x4x23_0_0_0 : ∀ a, (![0, 0, 0] : Fin 3 → Nat) a + S1x4x23.size a ≤ S1x4x23.size a
  h_S1x4x23 : 0 < S1x4x23.numel
  shapeCasts_S1x4x23_S4x23 : S1x4x23.ShapeCasts S4x23
  shapeCasts_S4x23_S1x4x23 : S4x23.ShapeCasts S1x4x23
  inb_S1x23x128x512_S1x23x128x512_0_0_0_0 : ∀ a, (![0, 0, 0, 0] : Fin 4 → Nat) a + S1x23x128x512.size a ≤ S1x23x128x512.size a
  h_S1x23x128x512 : 0 < S1x23x128x512.numel
  shapeCasts_S1x23x128x512_S23x128x512 : S1x23x128x512.ShapeCasts S23x128x512
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S128x512 : S1x1x128x512.ShapeCasts S128x512
  reduces_S23x128x512_S128x512 : S23x128x512.Reduces [0] S128x512
  shapeCasts_S128x512_S1x128x512 : S128x512.ShapeCasts S1x128x512
  broadcasts_S1x128x512_S23x128x512 : S1x128x512.Broadcasts S23x128x512
  iota_S23x1x1_d0_w32 : S23x1x1.Iotas .tc 32 [0]
  broadcasts_S23x1x1_S23x128x512 : S23x1x1.Broadcasts S23x128x512
  natLt_1_32 : 1 < 32
  reduces_S23x128x512_S23x128 : S23x128x512.Reduces [2] S23x128
  reduces_S23x128_S23 : S23x128.Reduces [1] S23
  shapeCasts_S23_S1x23 : S23.ShapeCasts S1x23
  concatenates_S1x23_S1x23_S1x23_S1x23_S4x23_d0 : Shape.Concatenates [S1x23, S1x23, S1x23, S1x23] S4x23 0
  reducesTo_S8x4x23_S4x23_d0 : S8x4x23.ReducesTo [0] S4x23
  h_S_ : 0 < S_.numel
  slices_S4x23_S1x23_0_0 : S4x23.Slices ![0, 0] S1x23
  shapeCasts_S1x23_S23 : S1x23.ShapeCasts S23
  slices_S4x23_S1x23_1_0 : S4x23.Slices ![1, 0] S1x23
  slices_S4x23_S1x23_2_0 : S4x23.Slices ![2, 0] S1x23
  slices_S4x23_S1x23_3_0 : S4x23.Slices ![3, 0] S1x23
  reducesTo_S23_S_d0 : S23.ReducesTo [0] S_
  bcast_S_S23 : S_.BroadcastsInDim S23 (![] : Fin 0 → Fin S23.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x23x128x512.size a ≤ S8x23x512x512.size a
  hwx0_0 : ∀ i : grid0.Coords, EltTy.bits .f32 = 32 ∨ (Rect.block (s := S8x23x512x512) S1x23x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x512.size a ≤ S8x1x512x512.size a
  hwx0_1 : ∀ i : grid0.Coords, EltTy.bits .i32 = 32 ∨ (Rect.block (s := S8x1x512x512) S1x1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x23.size a ≤ S8x4x23.size a
  hwx0_2 : ∀ i : grid0.Coords, EltTy.bits .f32 = 32 ∨ (Rect.block (s := S8x4x23) S1x4x23.size (cc0_transform_2 i) (hinb0_2 i)).WholeWords (EltTy.packing .f32)

variable [Facts₀]

abbrev win0_0 : Pipeline.Window sig grid0 :=
  Pipeline.Window.ofSpec (Memref.whole main_arg0) S1x23x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4x23.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x23x512x512 : Shape := ⟨4, ![8, 23, 512, 512]⟩
abbrev S8x1x512x512 : Shape := ⟨4, ![8, 1, 512, 512]⟩
abbrev S8x512x512 : Shape := ⟨3, ![8, 512, 512]⟩
abbrev S_ : Shape := ⟨0, ![]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S2097152 : Shape := ⟨1, ![2097152]⟩
abbrev S23 : Shape := ⟨1, ![23]⟩
abbrev S2097152x1 : Shape := ⟨2, ![2097152, 1]⟩

abbrev nBuf : Space → Nat
  | .hbm => 109
  | .vmem => 0
  | .smem => 0
  | _ => 0

abbrev bufTy : (tb : Table) → Fin (tcTables nBuf tb) → BufTy
  | .hbm, ⟨0, _⟩ => ⟨S8x23x512x512, .f32⟩
  | .hbm, ⟨1, _⟩ => ⟨S8x1x512x512, .i32⟩
  | .hbm, ⟨2, _⟩ => ⟨S8x512x512, .i32⟩
  | .hbm, ⟨3, _⟩ => ⟨S_, .f32⟩
  | .hbm, ⟨4, _⟩ => ⟨S8x512x512, .f32⟩
  | .hbm, ⟨5, _⟩ => ⟨S_, .f32⟩
  | .hbm, ⟨6, _⟩ => ⟨S8x512x512, .f32⟩
  | .hbm, ⟨7, _⟩ => ⟨S8x512x512, .f32⟩
  | .hbm, ⟨8, _⟩ => ⟨S8x1x512x512, .f32⟩
  | .hbm, ⟨9, _⟩ => ⟨S8x23x512x512, .f32⟩
  | .hbm, ⟨10, _⟩ => ⟨S8x23x512x512, .f32⟩
  | .hbm, ⟨11, _⟩ => ⟨S8x23x512x512, .f32⟩
  | .hbm, ⟨12, _⟩ => ⟨S_, .f32⟩
  | .hbm, ⟨13, _⟩ => ⟨S8x512x512, .f32⟩
  | .hbm, ⟨14, _⟩ => ⟨S8x1x512x512, .f32⟩
  | .hbm, ⟨15, _⟩ => ⟨S8x1x512x512, .f32⟩
  | .hbm, ⟨16, _⟩ => ⟨S8x23x512x512, .f32⟩
  | .hbm, ⟨17, _⟩ => ⟨S8x23x512x512, .f32⟩
  | .hbm, ⟨18, _⟩ => ⟨S8x23x512x512, .f32⟩
  | .hbm, ⟨19, _⟩ => ⟨S8x1x512x512, .i32⟩
  | .hbm, ⟨20, _⟩ => ⟨S_, .i32⟩
  | .hbm, ⟨21, _⟩ => ⟨S8x1x512x512, .i32⟩
  | .hbm, ⟨22, _⟩ => ⟨S8x1x512x512, .i1⟩
  | .hbm, ⟨23, _⟩ => ⟨S_, .i32⟩
  | .hbm, ⟨24, _⟩ => ⟨S8x1x512x512, .i32⟩
  | .hbm, ⟨25, _⟩ => ⟨S8x1x512x512, .i32⟩
  | .hbm, ⟨26, _⟩ => ⟨S8x1x512x512, .i32⟩
  | .hbm, ⟨27, _⟩ => ⟨S8x1x512x512x1, .i32⟩
  | .hbm, ⟨28, _⟩ => ⟨S1, .i32⟩
  | .hbm, ⟨29, _⟩ => ⟨S_, .i32⟩
  | .hbm, ⟨30, _⟩ => ⟨S8x1x512x512x1, .i32⟩
  | .hbm, ⟨31, _⟩ => ⟨S8x1x512x512x1, .i1⟩
  | .hbm, ⟨32, _⟩ => ⟨S1x1x1x1x1, .i32⟩
  | .hbm, ⟨33, _⟩ => ⟨S8x1x512x512x1, .i32⟩
  | .hbm, ⟨34, _⟩ => ⟨S8x1x512x512x1, .i1⟩
  | .hbm, ⟨35, _⟩ => ⟨S8x1x512x512x1, .i1⟩
  | .hbm, ⟨36, _⟩ => ⟨S_, .i1⟩
  | .hbm, ⟨37, _⟩ => ⟨S8x1x512x512, .i1⟩
  | .hbm, ⟨38, _⟩ => ⟨S8x1x512x512, .f32⟩
  | .hbm, ⟨39, _⟩ => ⟨S_, .f32⟩
  | .hbm, ⟨40, _⟩ => ⟨S8x1x512x512, .f32⟩
  | .hbm, ⟨41, _⟩ => ⟨S8x1x512x512, .f32⟩
  | .hbm, ⟨42, _⟩ => ⟨S8x512x512, .f32⟩
  | .hbm, ⟨43, _⟩ => ⟨S2097152, .i32⟩
  | .hbm, ⟨44, _⟩ => ⟨S2097152, .f32⟩
  | .hbm, ⟨45, _⟩ => ⟨S_, .f32⟩
  | .hbm, ⟨46, _⟩ => ⟨S23, .f32⟩
  | .hbm, ⟨47, _⟩ => ⟨S2097152x1, .i32⟩
  | .hbm, ⟨48, _⟩ => ⟨S23, .f32⟩
  | .hbm, ⟨49, _⟩ => ⟨S_, .f32⟩
  | .hbm, ⟨50, _⟩ => ⟨S23, .f32⟩
  | .hbm, ⟨51, _⟩ => ⟨S2097152, .f32⟩
  | .hbm, ⟨52, _⟩ => ⟨S_, .f32⟩
  | .hbm, ⟨53, _⟩ => ⟨S2097152, .f32⟩
  | .hbm, ⟨54, _⟩ => ⟨S_, .f32⟩
  | .hbm, ⟨55, _⟩ => ⟨S23, .f32⟩
  | .hbm, ⟨56, _⟩ => ⟨S2097152x1, .i32⟩
  | .hbm, ⟨57, _⟩ => ⟨S23, .f32⟩
  | .hbm, ⟨58, _⟩ => ⟨S_, .f32⟩
  | .hbm, ⟨59, _⟩ => ⟨S23, .f32⟩
  | .hbm, ⟨60, _⟩ => ⟨S23, .f32⟩
  | .hbm, ⟨61, _⟩ => ⟨S_, .f32⟩
  | .hbm, ⟨62, _⟩ => ⟨S23, .f32⟩
  | .hbm, ⟨63, _⟩ => ⟨S23, .f32⟩
  | .hbm, ⟨64, _⟩ => ⟨S23, .f32⟩
  | .hbm, ⟨65, _⟩ => ⟨S_, .f32⟩
  | .hbm, ⟨66, _⟩ => ⟨S23, .f32⟩
  | .hbm, ⟨67, _⟩ => ⟨S23, .f32⟩
  | .hbm, ⟨68, _⟩ => ⟨S23, .f32⟩
  | .hbm, ⟨69, _⟩ => ⟨S_, .f32⟩
  | .hbm, ⟨70, _⟩ => ⟨S23, .f32⟩
  | .hbm, ⟨71, _⟩ => ⟨S23, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x1x512x512, .i32⟩
  | .hbm, ⟨77, _⟩ => ⟨S_, .i32⟩
  | .hbm, ⟨78, _⟩ => ⟨S8x1x512x512, .i32⟩
  | .hbm, ⟨79, _⟩ => ⟨S8x1x512x512, .i1⟩
  | .hbm, ⟨80, _⟩ => ⟨S_, .i32⟩
  | .hbm, ⟨81, _⟩ => ⟨S8x1x512x512, .i32⟩
  | .hbm, ⟨82, _⟩ => ⟨S8x1x512x512, .i32⟩
  | .hbm, ⟨83, _⟩ => ⟨S8x1x512x512, .i32⟩
  | .hbm, ⟨84, _⟩ => ⟨S8x1x512x512x1, .i32⟩
  | .hbm, ⟨85, _⟩ => ⟨S1, .i32⟩
  | .hbm, ⟨86, _⟩ => ⟨S_, .i32⟩
  | .hbm, ⟨87, _⟩ => ⟨S8x1x512x512x1, .i32⟩
  | .hbm, ⟨88, _⟩ => ⟨S8x1x512x512x1, .i1⟩
  | .hbm, ⟨89, _⟩ => ⟨S1x1x1x1x1, .i32⟩
  | .hbm, ⟨90, _⟩ => ⟨S8x1x512x512x1, .i32⟩
  | .hbm, ⟨91, _⟩ => ⟨S8x1x512x512x1, .i1⟩
  | .hbm, ⟨92, _⟩ => ⟨S8x1x512x512x1, .i1⟩
  | .hbm, ⟨93, _⟩ => ⟨S_, .i1⟩
  | .hbm, ⟨94, _⟩ => ⟨S8x1x512x512, .i1⟩
  | .hbm, ⟨95, _⟩ => ⟨S8x1x512x512, .f32⟩
  | .hbm, ⟨96, _⟩ => ⟨S_, .f32⟩
  | .hbm, ⟨97, _⟩ => ⟨S8x1x512x512, .f32⟩
  | .hbm, ⟨98, _⟩ => ⟨S8x1x512x512, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S8x23x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_0 : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_cst_2 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_3 : Ref sig .tc := ⟨.hbm, 58, rfl⟩
abbrev main_v17 : Ref sig .tc := ⟨.hbm, 59, rfl⟩
abbrev main_v18 : Ref sig .tc := ⟨.hbm, 60, rfl⟩
abbrev main_cst_4 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_5 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_6 : Ref sig .tc := ⟨.hbm, 69, rfl⟩
abbrev main_v25 : Ref sig .tc := ⟨.hbm, 70, rfl⟩
abbrev main_v26 : Ref sig .tc := ⟨.hbm, 71, rfl⟩
abbrev main_cst_7 : Ref sig .tc := ⟨.hbm, 72, rfl⟩
abbrev main_v27 : Ref sig .tc := ⟨.hbm, 73, rfl⟩
abbrev main_cst_8 : Ref sig .tc := ⟨.hbm, 74, rfl⟩
abbrev main_v28 : Ref sig .tc := ⟨.hbm, 75, rfl⟩
abbrev main_v29 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v30 : Ref sig .tc := ⟨.hbm, 98, rfl⟩
abbrev main_cst_9 : Ref sig .tc := ⟨.hbm, 99, rfl⟩
abbrev main_v31 : Ref sig .tc := ⟨.hbm, 100, rfl⟩
abbrev main_cst_10 : Ref sig .tc := ⟨.hbm, 101, rfl⟩
abbrev main_v32 : Ref sig .tc := ⟨.hbm, 102, rfl⟩
abbrev main_v33 : Ref sig .tc := ⟨.hbm, 103, rfl⟩
abbrev main_cst_11 : Ref sig .tc := ⟨.hbm, 104, rfl⟩
abbrev main_v34 : Ref sig .tc := ⟨.hbm, 105, rfl⟩
abbrev main_cst_12 : Ref sig .tc := ⟨.hbm, 106, rfl⟩
abbrev main_v35 : Ref sig .tc := ⟨.hbm, 107, rfl⟩
abbrev main_v36 : Ref sig .tc := ⟨.hbm, 108, rfl⟩

abbrev nD : Nat := 1
abbrev τ : Topo := Topo.v7x

variable {F : FTy → Type} [FloatOps F]

class Facts₀ : Prop where
  shapeCasts_S8x1x512x512_S8x512x512 : S8x1x512x512.ShapeCasts S8x512x512
  reducesTo_S8x23x512x512_S8x512x512_d1 : S8x23x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x23x512x512_0_1_2_3 : S8x1x512x512.BroadcastsInDim S8x23x512x512 (![0, 1, 2, 3] : Fin 4 → Fin S8x23x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x512x512_S2097152 : S8x512x512.ShapeCasts S2097152
  bcast_S_S23 : S_.BroadcastsInDim S23 (![] : Fin 0 → Fin S23.rank)
  bcast_S2097152_S2097152x1_0 : S2097152.BroadcastsInDim S2097152x1 (![0] : Fin 1 → Fin S2097152x1.rank)
  reducesTo_S8x23x512x512_S23_d0_2_3 : S8x23x512x512.ReducesTo [0, 2, 3] S23
  bcast_S_S2097152 : S_.BroadcastsInDim S2097152 (![] : Fin 0 → Fin S2097152.rank)
  reducesTo_S23_S_d0 : S23.ReducesTo [0] S_
  reducesTo_S8x1x512x512_S_d0_1_2_3 : S8x1x512x512.ReducesTo [0, 1, 2, 3] S_
  gather_S8x23x512x512_S8x1x512x512x1_S8x1x512x512_n_1_023_023_1_4_1111_wf : GatherDims.WF S8x23x512x512 S8x1x512x512x1 S8x1x512x512 [] [1] [0, 2, 3] [1] [0, 2, 3] 4 ![1, 1, 1, 1]
  scatter_S23_S2097152x1_S2097152_n_0_0_1_wf : ScatterDims.WF S23 S2097152x1 S2097152 [] [0] [0] 1

variable [Facts₀]

def gather_S8x23x512x512_S8x1x512x512x1_S8x1x512x512_n_1_023_023_1_4_1111 : GatherDims S8x23x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x23x512x512_S8x1x512x512x1_S8x1x512x512_n_1_023_023_1_4_1111_wf
def scatter_S23_S2097152x1_S2097152_n_0_0_1 : ScatterDims S23 S2097152x1 S2097152 where
  updateWindowDims := []
  insertedWindowDims := [0]
  scatterDimsToOperandDims := [0]
  indexVectorDim := 1
  wf := scatter_S23_S2097152x1_S2097152_n_0_0_1_wf

class Facts : Prop extends Facts₀ where

variable [Facts]
-- ==== Proof.KernelAcc.lean ====
/-
  The accumulator of the statistics kernel, point by point. The grid has 32 points, point t = 4·b + k being
  row band k of batch element b. At a band-0 point the body stores a zero block [1, 4, 23], reads it back and
  adds the band's four rows of statistics; at the other points it adds them to what the point before left.
  So what the output's staging buffer holds after point t is a running sum that restarts at every fourth
  point: `chain`, by recursion on the point, and `outsAt_eq` by induction on it.
-/
import proofs.«421351_j10479720202819_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One point's update: the band's four rows of statistics (of the logits block `x0` and the label block `x1`)
    added to the accumulator `acc`. -/
abbrev step (x0 : Vec F S1x23x128x512 .f32) (x1 : Vec F S1x1x128x512 .i32) (acc : Vec F S1x4x23 .f32) : Vec F S1x4x23 .f32 :=
  k0_pay1 (k0_pay6 x0) (k0_pay7 x1) (k0_pay8 x0 x1) (k0_pay9 x0 x1) acc

/-- A point that is not the first of its batch element leaves the update of what it found. -/
theorem out_B (c : Dev nD) (i : grid0.Coords) (a2 : Memref sig .tc .vmem S1x23x128x512 .f32) (h2 : a2.IsWhole)
    (a3 : Memref sig .tc .vmem S1x1x128x512 .i32) (h3 : a3.IsWhole) (a4 : Memref sig .tc .vmem S1x4x23 .f32) (h4 : a4.IsWhole)
    (hc : ¬cond0_0 i) (x0 : Vec F S1x23x128x512 .f32) (x1 : Vec F S1x1x128x512 .i32) (xo : Vec F S1x4x23 .f32) :
    out0_B_2 c i a2 h2 a3 h3 a4 h4 hc x0 x1 xo = step x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x4x23) hz3,
    View.ld_unit_zero (S := S1x23x128x512) hz4, View.ld_unit_zero (S := S1x1x128x512) hz4]

/-- The first point of a batch element leaves the update of the zero block it stored and read back. -/
theorem out_A (c : Dev nD) (i : grid0.Coords) (a2 : Memref sig .tc .vmem S1x23x128x512 .f32) (h2 : a2.IsWhole)
    (a3 : Memref sig .tc .vmem S1x1x128x512 .i32) (h3 : a3.IsWhole) (a4 : Memref sig .tc .vmem S1x4x23 .f32) (h4 : a4.IsWhole)
    (hc : cond0_0 i) (x0 : Vec F S1x23x128x512 .f32) (x1 : Vec F S1x1x128x512 .i32) :
    out0_A_2 c i a2 h2 a3 h3 a4 h4 hc x0 x1 = step x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x4x23) hz3, View.readCov_unit_zero (S := S1x4x23) _ hz3]
  simp only [View.readAt_eq_ld, h2.read_unread, h3.read_unread, h4.read_unread, View.ld_unit_zero (S := S1x4x23) hz3,
    View.ld_unit_zero (S := S1x23x128x512) hz4, View.ld_unit_zero (S := S1x1x128x512) hz4]

variable (m : (ℓ : Loc nD τ sig) → Buf (Elt F) ℓ)

/-- The running sum after point `n`: restarted from the zero block at every fourth point. -/
def chain (c : Dev nD) : (n : ℕ) → n < cfg0.N → Vec F S1x4x23 .f32
  | 0, h => step (iblk m c 0 ⟨0, h⟩) (iblk m c 1 ⟨0, h⟩) (k0_pay2 (F := F))
  | n + 1, h =>
    if (n + 1) % 4 = 0 then step (iblk m c 0 ⟨n + 1, h⟩) (iblk m c 1 ⟨n + 1, h⟩) (k0_pay2 (F := F))
    else step (iblk m c 0 ⟨n + 1, h⟩) (iblk m c 1 ⟨n + 1, h⟩) (chain c n (Nat.lt_of_succ_lt h))

/-- What the output's staging buffer holds after point `n` is the running sum, by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    by_cases h0 : (n + 1) % 4 = 0
    · rw [outsAt0_A m c ⟨n + 1, h⟩ h0, out_A]
      simp only [chain, if_pos h0]
    · rw [outsAt0_B m c ⟨n + 1, h⟩ h0, out_B]
      simp only [chain, if_neg h0]
      show step _ _ (outsAt0 m c n _) = step _ _ (chain m c n _)
      rw [outsAt_eq c n]

end Cert.KernelIdeal.Acc

end
-- ==== Proof.KernelBlocks.lean ====
/-
  How the windows' blocks sit in their arrays. Point t = 4·b + k of the grid reads block (b, 0, k, 0) of the
  logits [8, 23, 512, 512] — batch element b, all classes, rows 128·k … 128·k + 127 — and the same block of the
  labels; the labels reach the region reshaped to [8, 512, 512] and broadcast back to [8, 1, 512, 512], which
  changes nothing. The output's block at point t is block (b, 0, 0) of [8, 4, 23].
-/
import proofs.«421351_j10479720202819_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Arr
open Cert.KernelIdeal Cert.KernelIdeal.Gen
variable {F : FTy → Type} [FloatOps F]
variable (m : (ℓ : Loc nD τ sig) → Buf (Elt F) ℓ)

theorem idx0 : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)
theorem idx1 : ∀ t : Fin cfg0.N, win0_1.index t 0 = t.val / 4 ∧ win0_1.index t 1 = 0 ∧ win0_1.index t 2 = t.val % 4 ∧ win0_1.index t 3 = 0 :=
  (by decide +kernel : ∀ t : Fin grid0.N, win0_1.index t 0 = t.val / 4 ∧ win0_1.index t 1 = 0 ∧ win0_1.index t 2 = t.val % 4 ∧ win0_1.index t 3 = 0)
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The labels as the region finds them: the reshape to [8, 512, 512] broadcast back to [8, 1, 512, 512] is the argument. -/
theorem V_v1 (c : Dev nD) : (V m c main_v1 : S8x1x512x512.Idx → Elt F .i32) = m ((c : Thread nD τ).loc main_arg1) := by
  have e : (V m c main_v1 : S8x1x512x512.Idx → Elt F .i32)
      = broadcastInDim S8x1x512x512 ![0, 2, 3] bcast_S8x512x512_S8x1x512x512_0_2_3
          (shapeCast S8x512x512 (m ((c : Thread nD τ).loc main_arg1)) shapeCasts_S8x1x512x512_S8x512x512) := by
    show StableHlo.after hostOps0 (fun b => m (c, b)) (Proc.devRef .tc main_v1) = _
    after_results
    rfl
  rw [e]
  funext i
  have hi1 : (i 1).val = 0 := by have h := (i 1).isLt; have e1 : S8x1x512x512.size 1 = 1 := rfl; omega
  let i3 : S8x512x512.Idx := fun a => match a with
    | ⟨0, _⟩ => ⟨(i 0).val, (i 0).isLt⟩
    | ⟨1, _⟩ => ⟨(i 2).val, (i 2).isLt⟩
    | ⟨2, _⟩ => ⟨(i 3).val, (i 3).isLt⟩
  refine (broadcastInDim_apply _ bcast_S8x512x512_S8x1x512x512_0_2_3 _ i i3 (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])).trans ?_
  exact shapeCast_apply _ shapeCasts_S8x1x512x512_S8x512x512 i3 i (by
    rewrite [Shape.rowMajor_val_four, Shape.rowMajor_val_three]
    show (((i 0).val * 1 + (i 1).val) * 512 + (i 2).val) * 512 + (i 3).val = ((i 0).val * 512 + (i 2).val) * 512 + (i 3).val
    omega)

theorem blk0_apply (c : Dev nD) (t : Fin cfg0.N) (cls : Fin 23) (i : Fin 128) (j : Fin 512)
    (hb : t.val / 4 < 8) (hh : 128 * (t.val % 4) + i.val < 512) :
    (iblk m c 0 t : Vec F S1x23x128x512 .f32) (ix4 (0 : Fin 1) cls i j)
      = m ((c : Thread nD τ).loc main_arg0) (ix4 (⟨t.val / 4, hb⟩ : Fin 8) cls (⟨128 * (t.val % 4) + i.val, hh⟩ : Fin 512) j) := by
  unfold iblk
  rw [View.read_apply]
  show V m c main_arg0 _ = _
  rw [V_main_arg0]
  congr 1
  funext a
  apply Fin.ext
  obtain ⟨h0, h1, h2, h3⟩ := idx0 t
  match a with
  | ⟨0, _⟩ => show win0_0.index t 0 * 1 + 1 * 0 = t.val / 4; rw [h0]; omega
  | ⟨1, _⟩ => show win0_0.index t 1 * 23 + 1 * cls.val = cls.val; rw [h1]; omega
  | ⟨2, _⟩ => show win0_0.index t 2 * 128 + 1 * i.val = 128 * (t.val % 4) + i.val; rw [h2]; omega
  | ⟨3, _⟩ => show win0_0.index t 3 * 512 + 1 * j.val = j.val; rw [h3]; omega

theorem blk1_apply (c : Dev nD) (t : Fin cfg0.N) (i : Fin 128) (j : Fin 512)
    (hb : t.val / 4 < 8) (hh : 128 * (t.val % 4) + i.val < 512) :
    (iblk m c 1 t : Vec F S1x1x128x512 .i32) (ix4 (0 : Fin 1) (0 : Fin 1) i j)
      = m ((c : Thread nD τ).loc main_arg1) (ix4 (⟨t.val / 4, hb⟩ : Fin 8) (0 : Fin 1) (⟨128 * (t.val % 4) + i.val, hh⟩ : Fin 512) j) := by
  unfold iblk
  rw [View.read_apply]
  show (V m c main_v1 : S8x1x512x512.Idx → Elt F .i32) _ = _
  rw [V_v1]
  congr 1
  funext a
  apply Fin.ext
  obtain ⟨h0, h1, h2, h3⟩ := idx1 t
  match a with
  | ⟨0, _⟩ => show win0_1.index t 0 * 1 + 1 * 0 = t.val / 4; rw [h0]; omega
  | ⟨1, _⟩ => show win0_1.index t 1 * 1 + 1 * 0 = 0; rw [h1]
  | ⟨2, _⟩ => show win0_1.index t 2 * 128 + 1 * i.val = 128 * (t.val % 4) + i.val; rw [h2]; omega
  | ⟨3, _⟩ => show win0_1.index t 3 * 512 + 1 * j.val = j.val; rw [h3]; omega

end Cert.KernelIdeal.Arr
end
-- ==== Proof.KernelArr.lean ====
/-
  The statistics array [8, 4, 23] after the region. The output's block index moves only with the batch
  element, so its staging buffer is written back at the last band of each batch element (points ≡ 3 mod 4),
  and block b of the array is then the running sum after point 4·b + 3; these blocks cover the array.
-/
import proofs.«421351_j10479720202819_2_alg».proof.Proof.KernelAcc
import proofs.«421351_j10479720202819_2_alg».proof.Proof.KernelBlocks

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Arr
open Cert.KernelIdeal Cert.KernelIdeal.Gen Cert.KernelIdeal.Acc
variable {F : FTy → Type} [FloatOps F]
variable (m : (ℓ : Loc nD τ sig) → Buf (Elt F) ℓ)

theorem chain_congr (c : Dev nD) {n n' : ℕ} (e : n = n') (h : n < cfg0.N) (h' : n' < cfg0.N) : chain m c n h = chain m c n' h' := by
  subst e; rfl

theorem lastBand_lt (b : ℕ) (hb : b < 8) : 4 * b + 3 < cfg0.N := by
  rw [show cfg0.N = 32 from N_0]; omega

/-- The statistics array after the region: batch element b's block is the running sum after its last band. -/
def outArr (c : Dev nD) : S8x4x23.Idx → Elt F .f32 := fun y =>
  chain m c (4 * (y 0).val + 3) (lastBand_lt _ (y 0).isLt) (ix3 (0 : Fin 1) (y 1) (y 2))

theorem flushed_eq (c : Dev nD) (t : Fin cfg0.N) (hf : (cfg0.win 2).flush t = true) :
    (dats m 0 c).flushed 2 t = ((cfg0.win 2).blk t).view.read (Elt F) (outArr m c) := by
  have h3 : t.val % 4 = 3 := (flush0_2 t).mp hf
  show (cfg0.win 2).cut (grid0.coords t) ((dats m 0 c).after 2 t) = _
  rw [after0_2, outsAt_eq]
  funext j
  show chain m c t.val t.isLt j = outArr m c (((cfg0.win 2).blk t).view.emb j)
  obtain ⟨e0, e1, e2⟩ := idx2 t
  have hj0 : (j 0).val = 0 := by have hlt : (j 0).val < 1 := (j 0).isLt; omega
  have a0 : ((((cfg0.win 2).blk t).view.emb j) 0).val = t.val / 4 := by
    show win0_2.index t 0 * 1 + 1 * (j 0).val = _; rw [e0, hj0]; omega
  have a1 : ((((cfg0.win 2).blk t).view.emb j) 1).val = (j 1).val := by
    show win0_2.index t 1 * 4 + 1 * (j 1).val = _; rw [e1]; omega
  have a2 : ((((cfg0.win 2).blk t).view.emb j) 2).val = (j 2).val := by
    show win0_2.index t 2 * 23 + 1 * (j 2).val = _; rw [e2]; omega
  unfold outArr
  rw [chain_congr m c (show 4 * ((((cfg0.win 2).blk t).view.emb j) 0).val + 3 = t.val by rw [a0]; omega) _ t.isLt]
  congr 1
  funext a
  apply Fin.ext
  match a with
  | ⟨0, _⟩ => exact hj0
  | ⟨1, _⟩ => exact a1.symm
  | ⟨2, _⟩ => exact a2.symm

theorem mem_blk (t : Fin cfg0.N) (i : S8x4x23.Idx) :
    i ∈ ((cfg0.win 2).blk t).view.set ↔ ∀ a : Fin 3, win0_2.index t a * S1x4x23.size a ≤ (i a).val ∧ (i a).val < win0_2.index t a * S1x4x23.size a + S1x4x23.size a := by
  show i ∈ ((View.whole main_v2).slice (win0_2.rect t)).set ↔ _
  rw [View.set_slice_whole, Rect.mem_set_unit]
  exact Iff.rfl

theorem final_out (c : Dev nD) : (dats m 0 c).arrAt 2 cfg0.N = outArr m c :=
  (dats m 0 c).arrAt_eq_of_cover 2 (outArr m c) (flushed_eq m c) fun i => by
    have hi0 : (i 0).val < 8 := (i 0).isLt
    have hi1 : (i 1).val < 4 := (i 1).isLt
    have hi2 : (i 2).val < 23 := (i 2).isLt
    refine ⟨⟨4 * (i 0).val + 3, lastBand_lt _ hi0⟩, (flush0_2 _).mpr (by show (4 * (i 0).val + 3) % 4 = 3; omega), ?_⟩
    rw [mem_blk]
    obtain ⟨e0, e1, e2⟩ := idx2 ⟨4 * (i 0).val + 3, lastBand_lt _ hi0⟩
    intro a
    match a with
    | ⟨0, _⟩ => show win0_2.index _ 0 * 1 ≤ (i 0).val ∧ (i 0).val < win0_2.index _ 0 * 1 + 1; rw [e0]; show (4 * (i 0).val + 3) / 4 * 1 ≤ _ ∧ _ < (4 * (i 0).val + 3) / 4 * 1 + 1; omega
    | ⟨1, _⟩ => show win0_2.index _ 1 * 4 ≤ (i 1).val ∧ (i 1).val < win0_2.index _ 1 * 4 + 4; rw [e1]; omega
    | ⟨2, _⟩ => show win0_2.index _ 2 * 23 ≤ (i 2).val ∧ (i 2).val < win0_2.index _ 2 * 23 + 23; rw [e2]; omega

end Cert.KernelIdeal.Arr
end
-- ==== Proof.Tail.lean ====
/-
  What both programs do with the four statistics once they have them: per class the dice ratio
  (2·inter + ε) / (sum_p + count + ε), the mean over the 23 classes of 1 - dice, the negated mean of the
  cross-entropy sum over the 2097152 pixels, and half of each added. Stated once, over any float family, as the
  chain of array operations both programs print; the proof never opens it.
-/
import Idealize.ShloMosaic.PureOps
import Idealize.ShloMosaic.Lib.StableHlo

noncomputable section

namespace Cert.Loss

open Idealize.ShloMosaic

abbrev S23 : Shape := ⟨1, ![23]⟩
abbrev S0 : Shape := ⟨0, ![]⟩

variable {F : FTy → Type} [FloatOps F]

/-- The loss from the per-class intersection `I`, probability mass `S`, count `N` and the cross-entropy sum `C`. -/
def tailV (hb : S0.BroadcastsInDim S23 (![] : Fin 0 → Fin S23.rank)) (hr : S23.ReducesTo [0] S0) (hu : 0 < S0.numel)
    (I S N : FVec F S23 .f32) (C : FVec F S0 .f32) : FVec F S0 .f32 :=
  addf
    (mulf (constant S0 .f32 0x3F000000#32)
      (Host.divf
        (Host.reduceAdd
          (subf (broadcastInDim S23 ![] hb (constant S0 .f32 0x3F800000#32))
            (Host.divf
              (addf (mulf (broadcastInDim S23 ![] hb (constant S0 .f32 0x40000000#32)) I)
                (broadcastInDim S23 ![] hb (constant S0 .f32 0x3727C5AC#32)))
              (addf (addf S N) (broadcastInDim S23 ![] hb (constant S0 .f32 0x3727C5AC#32)))))
          (constant S0 .f32 0x00000000#32) hr hu)
        (constant S0 .f32 0x41B80000#32)))
    (mulf (constant S0 .f32 0x3F000000#32)
      (Host.negf (Host.divf C (constant S0 .f32 0x4A000000#32))))

end Cert.Loss

end
-- ==== Proof.KernelRun.lean ====
/-
  The kernel program's run, read. After the region the host lines sum the statistics array over the batch axis,
  cut its four rows, and combine them into the loss: `lossOf` of the array, stated through the shared chain of
  operations `tailV`. The frame run gives every buffer after the run; the array is the region's output
  (`final_out`), the arguments are never written.
-/
import proofs.«421351_j10479720202819_2_alg».proof.Proof.KernelArr
import proofs.«421351_j10479720202819_2_alg».proof.Proof.Tail
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Run
open Cert.KernelIdeal Cert.KernelIdeal.Gen Cert.KernelIdeal.Acc Cert.KernelIdeal.Arr Cert.Loss
variable {F : FTy → Type} [FloatOps F]
variable (m : (ℓ : Loc nD τ sig) → Buf (Elt F) ℓ) (ρ : Dev nD → PrngReg)

/-- The statistics array summed over the batch axis. -/
abbrev batchSum (A : FVec F S8x4x23 .f32) : FVec F S4x23 .f32 :=
  Host.reduceAdd A (constant S_ .f32 0x00000000#32) reducesTo_S8x4x23_S4x23_d0 h_S_

/-- The loss the host lines after the region compute from the statistics array. -/
def lossOf (A : FVec F S8x4x23 .f32) : FVec F S_ .f32 :=
  tailV bcast_S_S23 reducesTo_S23_S_d0 h_S_
    (shapeCast S23 (extractStridedSlice S1x23 ![0, 0] (batchSum A) slices_S4x23_S1x23_0_0) shapeCasts_S1x23_S23)
    (shapeCast S23 (extractStridedSlice S1x23 ![1, 0] (batchSum A) slices_S4x23_S1x23_1_0) shapeCasts_S1x23_S23)
    (shapeCast S23 (extractStridedSlice S1x23 ![2, 0] (batchSum A) slices_S4x23_S1x23_2_0) shapeCasts_S1x23_S23)
    (Host.reduceAdd (shapeCast S23 (extractStridedSlice S1x23 ![3, 0] (batchSum A) slices_S4x23_S1x23_3_0) shapeCasts_S1x23_S23)
      (constant S_ .f32 0x00000000#32) reducesTo_S23_S_d0 h_S_)

theorem tail_eq (c : Dev nD) :
    Pipeline.afterTail₀ cfgs (dats m) 0 (V0 m) [hostOps1] c main_v29 = lossOf ((dats m 0 c).arrAt 2 cfg0.N) := by
  unfold Pipeline.afterTail₀
  show StableHlo.after hostOps1 _ (Proc.devRef .tc main_v29) = _
  after_results_simp
  rw [show Pipeline.withArrays (cfgs 0).spec c (V0 m c) (fun w => (dats m 0 c).arrAt w (cfgs 0).N) (Proc.devRef .tc main_v2)
      = (dats m 0 c).arrAt 2 cfg0.N from Pipeline.withArrays_arr spec0 launch0.win.arr_inj c _ _ 2]
  rfl

/-- The kernel's run, read: the result is the loss of the statistics array, the arguments are unchanged. -/
theorem run : θ_run defs (onTc (τ := τ) (main (F := F))) ⟨m, fun _ => 0, ρ⟩ (fun r => ∀ c : Dev nD,
      r.2.mem ((c.tc : Thread nD τ).loc main_v29) = lossOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).2 main_v29 (Pipeline.mem_restRefs_of main_v29 (by decide) (by decide))).trans (tail_eq m c)).trans
        (congrArg lossOf (final_out m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run
end
-- ==== Proof.Spec.lean ====
/-
  The combined dice + cross-entropy loss over [8, 23, 512, 512] logits and [8, 1, 512, 512] labels, as
  mathematics over the extended reals: what one pixel contributes, the four statistics as sums over the
  pixels, and the scalar the statistics are combined into.

  A pixel is a vector `p` of 23 logits and a label `t`. With `M = max_c p c` and `S = ∑_c exp (p c - M)` the
  log-probability of class `c` is written in two ways, `p c - (log S + M)` and `(p c - M) - log S`; they agree
  when the logits are real numbers. The one-hot weight of class `c` is 1 when `t` is the word `c`, else 0.
  Per class: the intersection `∑ onehot · exp logp`, the probability mass `∑ exp logp`, the count `∑ onehot`;
  and the cross-entropy sum `∑_c ∑ onehot · logp`.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The logits' shape and the labels' shape. -/
abbrev SP : Shape := ⟨4, ![8, 23, 512, 512]⟩
abbrev ST : Shape := ⟨4, ![8, 1, 512, 512]⟩

/-! ## One pixel -/

/-- The largest logit, as the fold of `max` from `-∞`. -/
def mxv (p : Fin 23 → EReal) : EReal := (Finset.univ : Finset (Fin 23)).fold max (⊥ : EReal) p
/-- The sum of the shifted exponentials. -/
def sev (p : Fin 23 → EReal) : EReal := ∑ c : Fin 23, Ideal.exp (p c - mxv p)
/-- The log-probability, the shift added back to the log-sum first. -/
def lpKv (p : Fin 23 → EReal) (c : Fin 23) : EReal := p c - (Ideal.log (sev p) + mxv p)
/-- The log-probability, the shift subtracted from the logit first. -/
def lpRv (p : Fin 23 → EReal) (c : Fin 23) : EReal := (p c - mxv p) - Ideal.log (sev p)
/-- The one-hot weight of class `c` at label word `t`. -/
def ohv (t : BitVec 32) (c : Fin 23) : EReal := if t = BitVec.ofNat 32 c.val then 1 else 0

/-! ## The arrays -/

variable (P : SP.Idx → EReal) (T : ST.Idx → BitVec 32)

/-- Pixel (b, h, w)'s logits and label. -/
def px (b : Fin 8) (h w : Fin 512) (c : Fin 23) : EReal := P (ix4 b c h w)
def lab (b : Fin 8) (h w : Fin 512) : BitVec 32 := T (ix4 b (0 : Fin 1) h w)

/-- The four statistics, over a choice `lp` of the log-probability's spelling. -/
def inter (lp : (Fin 23 → EReal) → Fin 23 → EReal) (c : Fin 23) : EReal :=
  ∑ b : Fin 8, ∑ h : Fin 512, ∑ w : Fin 512, ohv (lab T b h w) c * Ideal.exp (lp (px P b h w) c)
def sump (lp : (Fin 23 → EReal) → Fin 23 → EReal) (c : Fin 23) : EReal :=
  ∑ b : Fin 8, ∑ h : Fin 512, ∑ w : Fin 512, Ideal.exp (lp (px P b h w) c)
def cnt (c : Fin 23) : EReal :=
  ∑ b : Fin 8, ∑ h : Fin 512, ∑ w : Fin 512, ohv (lab T b h w) c
def ce (lp : (Fin 23 → EReal) → Fin 23 → EReal) : EReal :=
  ∑ c : Fin 23, ∑ b : Fin 8, ∑ h : Fin 512, ∑ w : Fin 512, ohv (lab T b h w) c * lp (px P b h w) c

end Cert.Loss

end
-- ==== Proof.BlockStats.lean ====
/-
  The arithmetic of one block of the dice + cross-entropy statistics, read at an index over the extended reals.

  A block holds 128 × 512 pixels, each with 23 logits and one label word. For the pixel at (i, j) with logits p
  and label t, the block's log-probability of class c is `p c - (log (∑ exp (p - max p)) + max p)`, its
  probability the exponential of that, and its one-hot weight 1 when t is the word c and 0 otherwise. The four
  per-class statistics of the block are the sums over its pixels of: weight · probability, probability, weight,
  and weight · log-probability. The block's accumulator update adds these four rows to the stored rows.
-/
import proofs.«421351_j10479720202819_2_alg».proof.Proof.Spec
import proofs.«421351_j10479720202819_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Loss.Block

open Cert.KernelIdeal Cert.KernelIdeal.Gen Cert.Loss Idealize.ShloMosaic Idealize.ShloMosaic.ValueIdx

/-- Pixel (i, j) of the block: its logits and its label. -/
def bpx (x0 : Vec Ideal S1x23x128x512 .f32) (i : Fin 128) (j : Fin 512) (c : Fin 23) : EReal := x0 (ix4 (0 : Fin 1) c i j)
def blab (x1 : Vec Ideal S1x1x128x512 .i32) (i : Fin 128) (j : Fin 512) : BitVec 32 := x1 (ix4 (0 : Fin 1) (0 : Fin 1) i j)

/-! ## Elementwise operations and layout changes at an index -/

/-- An exponential at an index is the exponential of the element … -/
theorem exp_apply {s : Shape} {φ : FTy} (a : FVec Ideal s φ) (i : s.Idx) : exp a i = Ideal.exp (a i) := rfl
/-- … and a logarithm the logarithm. -/
theorem log_apply {s : Shape} {φ : FTy} (a : FVec Ideal s φ) (i : s.Idx) : log a i = Ideal.log (a i) := rfl

/-- The f32 pattern of minus infinity is the bottom of the extended reals. -/
theorem ofBits_neg_inf : Ideal.ofBits .f32 0xFF800000#32 = ⊥ := by simp [Ideal.ofBits, Ideal.ieee]

/-- The block with its leading unit axis dropped reads pixel (i, j)'s logit of class c at (c, i, j). -/
theorem dropUnit_apply (x0 : Vec Ideal S1x23x128x512 .f32) (c : Fin 23) (i : Fin 128) (j : Fin 512) :
    (shapeCast S23x128x512 x0 shapeCasts_S1x23x128x512_S23x128x512 : FVec Ideal S23x128x512 .f32) (ix3 c i j)
      = bpx x0 i j c :=
  shapeCast_1abc_abc_apply x0 _ c i j

/-- A per-pixel array given a leading unit axis reads, at (u, i, j), the array at (i, j). -/
theorem addUnit_apply {α : Type} (w : S128x512.Idx → α) (u : Fin 1) (i : Fin 128) (j : Fin 512) :
    shapeCast S1x128x512 w shapeCasts_S128x512_S1x128x512 (ix3 u i j) = w (ix2 i j) :=
  shapeCast_ab_1ab_apply w _ u i j

/-- A per-pixel array broadcast over the classes reads, at (c, i, j), its one row at (i, j). -/
theorem bcastClass_apply {α : Type} (w : S1x128x512.Idx → α) (c : Fin 23) (i : Fin 128) (j : Fin 512) :
    broadcastTo S23x128x512 w broadcasts_S1x128x512_S23x128x512 (ix3 c i j) = w (ix3 (0 : Fin 1) i j) :=
  broadcastTo_apply w _ (ix3 c i j) (ix3 (0 : Fin 1) i j) fun a =>
    match a with | ⟨0, _⟩ => rfl | ⟨1, _⟩ => rfl | ⟨2, _⟩ => rfl

/-- The sum over the classes of a block, at pixel (i, j). -/
theorem sumClass_apply (v : FVec Ideal S23x128x512 .f32) (hφ : FKind.Formats .f32)
    (hacc : (0x00000000#32 : BitVec 32) = 0x00000000#32) (i : Fin 128) (j : Fin 512) :
    multiReduction .add ([0] : List (Fin 3)) S128x512 v 0x00000000#32 reduces_S23x128x512_S128x512 hφ hacc (ix2 i j)
      = ∑ c : Fin 23, v (ix3 c i j) := by
  refine (Ideal.multiReduction_add_single v 0x00000000#32 reduces_S23x128x512_S128x512 hφ hacc (ix2 i j)).trans ?_
  refine Finset.sum_congr rfl fun c _ => congrArg v (funext fun a => Fin.ext ?_)
  match a with | ⟨0, _⟩ => rfl | ⟨1, _⟩ => rfl | ⟨2, _⟩ => rfl

/-- The maximum over the classes of a block, at pixel (i, j): the fold of `max` from minus infinity. -/
theorem maxClass_apply (v : FVec Ideal S23x128x512 .f32) (hφ : FKind.Formats .f32)
    (hacc : (0xFF800000#32 : BitVec 32) = 0xFF800000#32) (i : Fin 128) (j : Fin 512) :
    multiReduction .maximumf ([0] : List (Fin 3)) S128x512 v 0xFF800000#32 reduces_S23x128x512_S128x512 hφ hacc (ix2 i j)
      = mxv fun c => v (ix3 c i j) := by
  refine (Ideal.multiReduction_maximumf_single v 0xFF800000#32 reduces_S23x128x512_S128x512 hφ hacc (ix2 i j)).trans ?_
  unfold mxv
  rw [Ideal.ofBits_def, ofBits_neg_inf]
  refine congrArg (Finset.fold max (⊥ : EReal) · (Finset.univ : Finset (Fin 23))) (funext fun c => congrArg v (funext fun a => Fin.ext ?_))
  match a with | ⟨0, _⟩ => rfl | ⟨1, _⟩ => rfl | ⟨2, _⟩ => rfl

/-! ## The log-probability, the probability and the one-hot weight of the block at (c, i, j) -/

/-- The block's log-probability at (c, i, j) is pixel (i, j)'s log-probability of class c. -/
theorem pay3_apply (x0 : Vec Ideal S1x23x128x512 .f32) (c : Fin 23) (i : Fin 128) (j : Fin 512) :
    k0_pay3 (F := Ideal) x0 (ix3 c i j) = lpKv (bpx x0 i j) c := by
  simp only [k0_pay3, subf_apply, addf_apply, exp_apply, log_apply, bcastClass_apply, addUnit_apply, sumClass_apply,
    maxClass_apply, dropUnit_apply]
  rfl

/-- The block's probability at (c, i, j) is the exponential of that log-probability. -/
theorem pay4_apply (x0 : Vec Ideal S1x23x128x512 .f32) (c : Fin 23) (i : Fin 128) (j : Fin 512) :
    k0_pay4 (F := Ideal) x0 (ix3 c i j) = Ideal.exp (lpKv (bpx x0 i j) c) := by
  show Ideal.exp (k0_pay3 (F := Ideal) x0 (ix3 c i j)) = _
  rw [pay3_apply]

/-- The label block with its two leading unit axes dropped reads pixel (i, j)'s label at (i, j). -/
theorem dropUnits_apply (x1 : Vec Ideal S1x1x128x512 .i32) (i : Fin 128) (j : Fin 512) :
    (shapeCast S128x512 x1 shapeCasts_S1x1x128x512_S128x512 : IVec S128x512 32) (ix2 i j) = blab x1 i j :=
  shapeCast_apply x1 _ _ _ (by
    rw [Shape.rowMajor_val_four, Shape.rowMajor_val_two]
    show ((0 * 1 + 0) * 128 + i.val) * 512 + j.val = i.val * 512 + j.val
    omega)

/-- The class numbers broadcast over the pixels read, at (c, i, j), the word c. -/
theorem classIota_apply (c : Fin 23) (i : Fin 128) (j : Fin 512) :
    broadcastTo S23x128x512 (iota .tc S23x1x1 32 ([0] : List (Fin 3)) iota_S23x1x1_d0_w32) broadcasts_S23x1x1_S23x128x512 (ix3 c i j)
      = BitVec.ofNat 32 c.val := by
  refine (broadcastTo_apply _ _ (ix3 c i j) (ix3 c (0 : Fin 1) (0 : Fin 1)) fun a =>
    match a with | ⟨0, _⟩ => rfl | ⟨1, _⟩ => rfl | ⟨2, _⟩ => rfl).trans ?_
  exact iota_single_apply .tc S23x1x1 32 0 iota_S23x1x1_d0_w32 _

/-- An integer comparison at an index compares the elements. -/
theorem cmpi_apply {s : Shape} {w : Nat} (p : CmpIPredicate) (a b : IVec s w) (i : s.Idx) :
    cmpi p a b i = IntOp.cmpi p (a i) (b i) := rfl

/-- The comparison of a label with a class number, widened to a word and converted, is the one-hot weight. -/
theorem oneHot_eq (t : BitVec 32) (c : Fin 23) :
    (FloatOps.sitofp .f32 ((IntOp.cmpi .eq t (BitVec.ofNat 32 c.val)).setWidth 32) : Ideal .f32) = ohv t c := by
  unfold ohv
  by_cases h : t = BitVec.ofNat 32 c.val
  · rw [if_pos h, StableHlo.Predicate.cmpi_eq_iff.mpr h]
    show ((((1#1 : BitVec 1).setWidth 32).toInt : ℝ) : EReal) = 1
    norm_num
  · rw [if_neg h, eq_zero_of_ne_one (fun h1 => h (StableHlo.Predicate.cmpi_eq_iff.mp h1))]
    show ((((0#1 : BitVec 1).setWidth 32).toInt : ℝ) : EReal) = 0
    norm_num

/-- The block's one-hot weight at (c, i, j) is pixel (i, j)'s weight of class c. -/
theorem pay5_apply (x1 : Vec Ideal S1x1x128x512 .i32) (c : Fin 23) (i : Fin 128) (j : Fin 512) :
    k0_pay5 (F := Ideal) x1 (ix3 c i j) = ohv (blab x1 i j) c := by
  simp only [k0_pay5, sitofp_apply, extui_apply, cmpi_apply, bcastClass_apply, addUnit_apply, dropUnits_apply,
    classIota_apply]
  exact oneHot_eq _ c

/-! ## The four statistics of the block, per class -/

/-- The sum over the pixels of a block, per class: over the columns, then over the rows. -/
theorem sumPixels_apply (v : FVec Ideal S23x128x512 .f32) (hφ : FKind.Formats .f32)
    (hacc hacc' : (0x00000000#32 : BitVec 32) = 0x00000000#32) (c : Fin 23) :
    multiReduction .add ([1] : List (Fin 2)) S23
        (multiReduction .add ([2] : List (Fin 3)) S23x128 v 0x00000000#32 reduces_S23x128x512_S23x128 hφ hacc)
        0x00000000#32 reduces_S23x128_S23 hφ hacc' (ix1 c)
      = ∑ i : Fin 128, ∑ j : Fin 512, v (ix3 c i j) := by
  refine (Ideal.multiReduction_add_single _ 0x00000000#32 reduces_S23x128_S23 hφ hacc' (ix1 c)).trans ?_
  refine Finset.sum_congr rfl fun i _ => ?_
  refine (Ideal.multiReduction_add_single v 0x00000000#32 reduces_S23x128x512_S23x128 hφ hacc _).trans ?_
  refine Finset.sum_congr rfl fun j _ => congrArg v (funext fun a => Fin.ext ?_)
  match a with | ⟨0, _⟩ => rfl | ⟨1, _⟩ => rfl | ⟨2, _⟩ => rfl

/-- The probability mass of class c in the block. -/
theorem pay6_apply (x0 : Vec Ideal S1x23x128x512 .f32) (c : Fin 23) :
    k0_pay6 (F := Ideal) x0 (ix1 c) = ∑ i : Fin 128, ∑ j : Fin 512, Ideal.exp (lpKv (bpx x0 i j) c) := by
  simp only [k0_pay6, sumPixels_apply, pay4_apply]

/-- The count of class c in the block. -/
theorem pay7_apply (x1 : Vec Ideal S1x1x128x512 .i32) (c : Fin 23) :
    k0_pay7 (F := Ideal) x1 (ix1 c) = ∑ i : Fin 128, ∑ j : Fin 512, ohv (blab x1 i j) c := by
  simp only [k0_pay7, sumPixels_apply, pay5_apply]

/-- The cross-entropy sum of class c in the block. -/
theorem pay8_apply (x0 : Vec Ideal S1x23x128x512 .f32) (x1 : Vec Ideal S1x1x128x512 .i32) (c : Fin 23) :
    k0_pay8 (F := Ideal) x0 x1 (ix1 c) = ∑ i : Fin 128, ∑ j : Fin 512, ohv (blab x1 i j) c * lpKv (bpx x0 i j) c := by
  simp only [k0_pay8, sumPixels_apply, mulf_apply, pay5_apply, pay3_apply]

/-- The intersection of class c in the block, stored as a row. -/
theorem pay9_apply (x0 : Vec Ideal S1x23x128x512 .f32) (x1 : Vec Ideal S1x1x128x512 .i32) (c : Fin 23) :
    k0_pay9 (F := Ideal) x0 x1 (ix2 (0 : Fin 1) c)
      = ∑ i : Fin 128, ∑ j : Fin 512, ohv (blab x1 i j) c * Ideal.exp (lpKv (bpx x0 i j) c) := by
  simp only [k0_pay9, shapeCast_a_1a_apply, sumPixels_apply, mulf_apply, pay5_apply, pay4_apply]

/-! ## The accumulator: its first value and its update -/

/-- The accumulator starts at zero. -/
theorem pay2_apply (y : S1x4x23.Idx) : k0_pay2 (F := Ideal) y = 0 := by
  show Ideal.ofBits .f32 0x00000000#32 = 0
  exact Ideal.ofBits_zero_f32

/-- The four rows stacked, read at row k: the k-th of them. -/
theorem stack_apply (w0 w1 w2 w3 : S1x23.Idx → EReal) (k : Nat) (hk : k < 4) (x : S1x23.Idx → EReal)
    (hx : [(⟨S1x23, w0⟩ : (s : Shape) × (s.Idx → EReal)), ⟨S1x23, w1⟩, ⟨S1x23, w2⟩, ⟨S1x23, w3⟩][k]'hk = ⟨S1x23, x⟩)
    (hpre : ((([(⟨S1x23, w0⟩ : (s : Shape) × (s.Idx → EReal)), ⟨S1x23, w1⟩, ⟨S1x23, w2⟩, ⟨S1x23, w3⟩].take k).map (·.1)).map
      fun s => if h : s.rank = S4x23.rank then s.size ((0 : Fin S4x23.rank).cast h.symm) else 0).sum = k)
    (c : Fin 23) :
    concatenate S4x23 0 [⟨S1x23, w0⟩, ⟨S1x23, w1⟩, ⟨S1x23, w2⟩, ⟨S1x23, w3⟩]
      concatenates_S1x23_S1x23_S1x23_S1x23_S4x23_d0 (ix2 (⟨k, hk⟩ : Fin 4) c) = x (ix2 (0 : Fin 1) c) :=
  concatenate_apply_piece (0 : Fin S4x23.rank) [⟨S1x23, w0⟩, ⟨S1x23, w1⟩, ⟨S1x23, w2⟩, ⟨S1x23, w3⟩]
    concatenates_S1x23_S1x23_S1x23_S1x23_S4x23_d0 (ix2 (⟨k, hk⟩ : Fin 4) c) k hk S1x23 x hx rfl k hpre
    (ix2 (0 : Fin 1) c) (fun b hb => match b with | ⟨0, _⟩ => absurd rfl hb | ⟨1, _⟩ => rfl) rfl

/-- The update at row r, before the stacked rows are read: the stored row plus the stacked row. -/
theorem pay1_split (v31 v33 v35 : FVec Ideal S23 .f32) (v36 : FVec Ideal S1x23 .f32) (v41 : Vec Ideal S1x4x23 .f32)
    (r : Fin 4) (c : Fin 23) :
    k0_pay1 (F := Ideal) v31 v33 v35 v36 v41 (ix3 (0 : Fin 1) r c)
      = v41 (ix3 (0 : Fin 1) r c)
        + concatenate S4x23 0 [⟨S1x23, v36⟩, ⟨S1x23, shapeCast S1x23 v31 shapeCasts_S23_S1x23⟩,
            ⟨S1x23, shapeCast S1x23 v33 shapeCasts_S23_S1x23⟩, ⟨S1x23, shapeCast S1x23 v35 shapeCasts_S23_S1x23⟩]
          concatenates_S1x23_S1x23_S1x23_S1x23_S4x23_d0 (ix2 r c) := by
  simp only [k0_pay1, shapeCast_ab_1ab_apply, addf_apply, shapeCast_1ab_ab_apply]

/-- Row 0 of the update adds the intersection row. -/
theorem pay1_row0 (v31 v33 v35 : FVec Ideal S23 .f32) (v36 : FVec Ideal S1x23 .f32) (v41 : Vec Ideal S1x4x23 .f32) (c : Fin 23) :
    k0_pay1 (F := Ideal) v31 v33 v35 v36 v41 (ix3 (0 : Fin 1) (0 : Fin 4) c)
      = v41 (ix3 (0 : Fin 1) (0 : Fin 4) c) + v36 (ix2 (0 : Fin 1) c) := by
  rw [pay1_split]
  exact congrArg (_ + ·) (stack_apply _ _ _ _ 0 (by decide) v36 rfl rfl c)

/-- Row 1 adds the probability mass. -/
theorem pay1_row1 (v31 v33 v35 : FVec Ideal S23 .f32) (v36 : FVec Ideal S1x23 .f32) (v41 : Vec Ideal S1x4x23 .f32) (c : Fin 23) :
    k0_pay1 (F := Ideal) v31 v33 v35 v36 v41 (ix3 (0 : Fin 1) (1 : Fin 4) c)
      = v41 (ix3 (0 : Fin 1) (1 : Fin 4) c) + v31 (ix1 c) := by
  rw [pay1_split]
  refine congrArg (_ + ·) ((stack_apply _ _ _ _ 1 (by decide) _ rfl rfl c).trans ?_)
  exact shapeCast_a_1a_apply v31 shapeCasts_S23_S1x23 (0 : Fin 1) c

/-- Row 2 adds the count. -/
theorem pay1_row2 (v31 v33 v35 : FVec Ideal S23 .f32) (v36 : FVec Ideal S1x23 .f32) (v41 : Vec Ideal S1x4x23 .f32) (c : Fin 23) :
    k0_pay1 (F := Ideal) v31 v33 v35 v36 v41 (ix3 (0 : Fin 1) (2 : Fin 4) c)
      = v41 (ix3 (0 : Fin 1) (2 : Fin 4) c) + v33 (ix1 c) := by
  rw [pay1_split]
  refine congrArg (_ + ·) ((stack_apply _ _ _ _ 2 (by decide) _ rfl rfl c).trans ?_)
  exact shapeCast_a_1a_apply v33 shapeCasts_S23_S1x23 (0 : Fin 1) c

/-- Row 3 adds the cross-entropy sum. -/
theorem pay1_row3 (v31 v33 v35 : FVec Ideal S23 .f32) (v36 : FVec Ideal S1x23 .f32) (v41 : Vec Ideal S1x4x23 .f32) (c : Fin 23) :
    k0_pay1 (F := Ideal) v31 v33 v35 v36 v41 (ix3 (0 : Fin 1) (3 : Fin 4) c)
      = v41 (ix3 (0 : Fin 1) (3 : Fin 4) c) + v35 (ix1 c) := by
  rw [pay1_split]
  refine congrArg (_ + ·) ((stack_apply _ _ _ _ 3 (by decide) _ rfl rfl c).trans ?_)
  exact shapeCast_a_1a_apply v35 shapeCasts_S23_S1x23 (0 : Fin 1) c

/-- The update at any row: the stored row plus that row's statistic of the block. -/
theorem pay1_apply (v31 v33 v35 : FVec Ideal S23 .f32) (v36 : FVec Ideal S1x23 .f32) (v41 : Vec Ideal S1x4x23 .f32)
    (r : Fin 4) (c : Fin 23) :
    k0_pay1 (F := Ideal) v31 v33 v35 v36 v41 (ix3 (0 : Fin 1) r c)
      = v41 (ix3 (0 : Fin 1) r c)
        + (match r with
          | ⟨0, _⟩ => v36 (ix2 (0 : Fin 1) c) | ⟨1, _⟩ => v31 (ix1 c) | ⟨2, _⟩ => v33 (ix1 c) | ⟨3, _⟩ => v35 (ix1 c)
          | ⟨_ + 4, h⟩ => absurd h (by omega)) :=
  match r with
  | ⟨0, _⟩ => pay1_row0 v31 v33 v35 v36 v41 c
  | ⟨1, _⟩ => pay1_row1 v31 v33 v35 v36 v41 c
  | ⟨2, _⟩ => pay1_row2 v31 v33 v35 v36 v41 c
  | ⟨3, _⟩ => pay1_row3 v31 v33 v35 v36 v41 c
  | ⟨_ + 4, h⟩ => absurd h (by omega)

end Cert.Loss.Block

end
-- ==== Proof.Bands.lean ====
/-
  A sum over the 512 rows of an image is the sum over its four bands of 128 rows: row h is row i of band k with
  h = 128·k + i.
-/
import Mathlib.Algebra.BigOperators.Fin
import Mathlib.Logic.Equiv.Fin.Basic
import Mathlib.Data.EReal.Basic

namespace Cert.Loss

theorem band_row_lt (k : Fin 4) (i : Fin 128) : 128 * k.val + i.val < 512 := by
  have := k.isLt; have := i.isLt; omega

theorem sum_bands {M : Type} [AddCommMonoid M] (g : Fin 512 → M) :
    ∑ h : Fin 512, g h = ∑ k : Fin 4, ∑ i : Fin 128, g ⟨128 * k.val + i.val, band_row_lt k i⟩ := by
  rw [← (finProdFinEquiv (m := 4) (n := 128)).sum_comp g, Fintype.sum_prod_type]
  refine Finset.sum_congr rfl fun k _ => Finset.sum_congr rfl fun i _ => congrArg g (Fin.ext ?_)
  show i.val + 128 * k.val = 128 * k.val + i.val
  omega

end Cert.Loss
-- ==== Proof.KernelSums.lean ====
/-
  The statistics array at the extended reals, index by index. One point adds to row r, class cc of the accumulator
  the sum over its band's 128 × 512 pixels of what a pixel contributes to that row (`pix`): the one-hot weight
  times the probability, the probability, the one-hot weight, the one-hot weight times the log-probability. The
  running sum after point n is therefore the sum of the bands since the last restart (`chain_apply`, by induction
  on the point), a band of point 4·b + k is rows 128·k … of batch element b of the argument arrays, and the four
  bands of a batch element are its 512 rows: entry (b, r, cc) of the array is the sum over the pixels of batch
  element b of `pix r`.
-/
import proofs.«421351_j10479720202819_2_alg».proof.Proof.KernelArr
import proofs.«421351_j10479720202819_2_alg».proof.Proof.BlockStats
import proofs.«421351_j10479720202819_2_alg».proof.Proof.Bands

set_option maxRecDepth 16384

noncomputable section

open Idealize.ShloMosaic Idealize.ShloMosaic.TcCoe Idealize.SL.Sem Idealize.ShloMosaic.ValueIdx

namespace Cert.KernelIdeal.Sums

open Cert.KernelIdeal Cert.KernelIdeal.Gen Cert.KernelIdeal.Acc Cert.KernelIdeal.Arr Cert.Loss Cert.Loss.Block

/-- What a pixel with logits `p` and label `t` adds to row `r` of the statistics at class `cc`. -/
def pix (r : Fin 4) (p : Fin 23 → EReal) (t : BitVec 32) (cc : Fin 23) : EReal :=
  match r with
  | ⟨0, _⟩ => ohv t cc * Ideal.exp (lpKv p cc)
  | ⟨1, _⟩ => Ideal.exp (lpKv p cc)
  | ⟨2, _⟩ => ohv t cc
  | ⟨3, _⟩ => ohv t cc * lpKv p cc
  | ⟨_ + 4, h⟩ => absurd h (by omega)

/-- One point's update at an entry: what was there plus the band's pixels' contributions. -/
theorem step_apply (x0 : Vec Ideal S1x23x128x512 .f32) (x1 : Vec Ideal S1x1x128x512 .i32) (acc : Vec Ideal S1x4x23 .f32)
    (r : Fin 4) (cc : Fin 23) :
    step (F := Ideal) x0 x1 acc (ix3 (0 : Fin 1) r cc)
      = acc (ix3 (0 : Fin 1) r cc) + ∑ i : Fin 128, ∑ j : Fin 512, pix r (bpx x0 i j) (blab x1 i j) cc := by
  show k0_pay1 (F := Ideal) (k0_pay6 x0) (k0_pay7 x1) (k0_pay8 x0 x1) (k0_pay9 x0 x1) acc (ix3 (0 : Fin 1) r cc) = _
  rw [pay1_apply]
  match r with
  | ⟨0, _⟩ => show acc _ + k0_pay9 (F := Ideal) x0 x1 (ix2 (0 : Fin 1) cc) = _; rw [pay9_apply]; rfl
  | ⟨1, _⟩ => show acc _ + k0_pay6 (F := Ideal) x0 (ix1 cc) = _; rw [pay6_apply]; rfl
  | ⟨2, _⟩ => show acc _ + k0_pay7 (F := Ideal) x1 (ix1 cc) = _; rw [pay7_apply]; rfl
  | ⟨3, _⟩ => show acc _ + k0_pay8 (F := Ideal) x0 x1 (ix1 cc) = _; rw [pay8_apply]; rfl
  | ⟨_ + 4, h⟩ => exact absurd h (by omega)

variable (m : (ℓ : Loc nD τ sig) → Buf (Elt Ideal) ℓ)

/-- The argument arrays. -/
abbrev argP (c : Dev nD) : SP.Idx → EReal := m ((c : Thread nD τ).loc main_arg0)
abbrev argT (c : Dev nD) : ST.Idx → BitVec 32 := m ((c : Thread nD τ).loc main_arg1)

/-- What the band of point `n` adds to row `r`, class `cc` (nothing past the grid). -/
def bandv (c : Dev nD) (n : ℕ) (r : Fin 4) (cc : Fin 23) : EReal :=
  if h : n < cfg0.N then
    ∑ i : Fin 128, ∑ j : Fin 512, pix r (bpx (iblk m c 0 ⟨n, h⟩) i j) (blab (iblk m c 1 ⟨n, h⟩) i j) cc
  else 0

/-- The running sum after point `n` at an entry: the bands since the last restart. -/
theorem chain_apply (c : Dev nD) (r : Fin 4) (cc : Fin 23) : ∀ (n : ℕ) (h : n < cfg0.N),
    chain m c n h (ix3 (0 : Fin 1) r cc) = ∑ k ∈ Finset.range (n % 4 + 1), bandv m c (n - n % 4 + k) r cc
  | 0, h => by
    simp only [chain]
    rw [step_apply, pay2_apply, zero_add]
    simp [bandv, h]
  | n + 1, h => by
    by_cases h0 : (n + 1) % 4 = 0
    · simp only [chain, if_pos h0]
      rw [step_apply, pay2_apply, zero_add, h0]
      simp [bandv, h]
    · simp only [chain, if_neg h0]
      rw [step_apply, chain_apply c r cc n]
      have e1 : (n + 1) % 4 = n % 4 + 1 := by omega
      have e2 : n + 1 - (n % 4 + 1) = n - n % 4 := by omega
      have e3 : n - n % 4 + (n % 4 + 1) = n + 1 := by omega
      rw [e1, e2, Finset.sum_range_succ _ (n % 4 + 1), e3]
      congr 1
      simp [bandv, h]

/-- The logits of pixel (i, j) of point t's block are those of pixel (b, 128·k + i, j) of the argument, t = 4·b + k. -/
theorem bpx_blk (c : Dev nD) (t : Fin cfg0.N) (b : Fin 8) (k : Fin 4) (ht : t.val = 4 * b.val + k.val) (i : Fin 128) (j : Fin 512) :
    bpx (iblk m c 0 t) i j = px (argP m c) b ⟨128 * k.val + i.val, band_row_lt k i⟩ j := by
  funext cls
  have hb : t.val / 4 < 8 := by have := b.isLt; have := k.isLt; omega
  have hh : 128 * (t.val % 4) + i.val < 512 := by have := i.isLt; omega
  have eb : (⟨t.val / 4, hb⟩ : Fin 8) = b := Fin.ext (by have := k.isLt; show t.val / 4 = b.val; omega)
  have eh : (⟨128 * (t.val % 4) + i.val, hh⟩ : Fin 512) = ⟨128 * k.val + i.val, band_row_lt k i⟩ :=
    Fin.ext (by have := k.isLt; show 128 * (t.val % 4) + i.val = 128 * k.val + i.val; omega)
  show (iblk m c 0 t : Vec Ideal S1x23x128x512 .f32) (ix4 (0 : Fin 1) cls i j) = _
  rw [blk0_apply m c t cls i j hb hh, eb, eh]
  rfl

/-- Its label likewise. -/
theorem blab_blk (c : Dev nD) (t : Fin cfg0.N) (b : Fin 8) (k : Fin 4) (ht : t.val = 4 * b.val + k.val) (i : Fin 128) (j : Fin 512) :
    blab (iblk m c 1 t) i j = lab (argT m c) b ⟨128 * k.val + i.val, band_row_lt k i⟩ j := by
  have hb : t.val / 4 < 8 := by have := b.isLt; have := k.isLt; omega
  have hh : 128 * (t.val % 4) + i.val < 512 := by have := i.isLt; omega
  have eb : (⟨t.val / 4, hb⟩ : Fin 8) = b := Fin.ext (by have := k.isLt; show t.val / 4 = b.val; omega)
  have eh : (⟨128 * (t.val % 4) + i.val, hh⟩ : Fin 512) = ⟨128 * k.val + i.val, band_row_lt k i⟩ :=
    Fin.ext (by have := k.isLt; show 128 * (t.val % 4) + i.val = 128 * k.val + i.val; omega)
  show (iblk m c 1 t : Vec Ideal S1x1x128x512 .i32) (ix4 (0 : Fin 1) (0 : Fin 1) i j) = _
  rw [blk1_apply m c t i j hb hh, eb, eh]
  rfl

/-- Entry (b, r, cc) of the statistics array: the sum over batch element b's pixels of their contributions to row r. -/
theorem outArr_apply (c : Dev nD) (b : Fin 8) (r : Fin 4) (cc : Fin 23) :
    outArr m c (ix3 b r cc) = ∑ h : Fin 512, ∑ w : Fin 512, pix r (px (argP m c) b h w) (lab (argT m c) b h w) cc := by
  have hb := b.isLt
  show chain m c (4 * b.val + 3) (lastBand_lt _ b.isLt) (ix3 (0 : Fin 1) r cc) = _
  rw [chain_apply]
  have e1 : (4 * b.val + 3) % 4 + 1 = 4 := by omega
  have e2 : 4 * b.val + 3 - (4 * b.val + 3) % 4 = 4 * b.val := by omega
  rw [e1, e2, Finset.sum_range (fun k => bandv m c (4 * b.val + k) r cc), sum_bands]
  refine Finset.sum_congr rfl fun k _ => ?_
  have hk := k.isLt
  have hlt : 4 * b.val + k.val < cfg0.N := by rw [show cfg0.N = 32 from N_0]; omega
  unfold bandv
  rw [dif_pos hlt]
  refine Finset.sum_congr rfl fun i _ => Finset.sum_congr rfl fun j _ => ?_
  rw [bpx_blk m c ⟨4 * b.val + k.val, hlt⟩ b k rfl i j, blab_blk m c ⟨4 * b.val + k.val, hlt⟩ b k rfl i j]

end Cert.KernelIdeal.Sums

end
-- ==== Proof.TailRows.lean ====
/-
  The statistics array summed over the batch and cut into its four rows, read at an index over the extended reals.

  The array holds, for each of 8 batch entries, four rows of 23 per-class statistics. The sum over the batch of
  row r at class cc is the sum over the 8 entries of the array at (b, r, cc); each row is then cut out and its
  unit axis dropped. The cross-entropy total is the sum over the classes of the last row.
-/
import proofs.«421351_j10479720202819_2_alg».proof.Proof.Gen.KernelIdeal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost

noncomputable section

namespace Cert.Loss.Rows

open Cert.KernelIdeal Cert.KernelIdeal.Gen Idealize.ShloMosaic Idealize.ShloMosaic.ValueIdx

/-- The sum over the batch of the statistics array, at row r and class cc. -/
theorem batchSum_apply (arr : FVec Ideal S8x4x23 .f32) (r : Fin 4) (cc : Fin 23) :
    Host.reduceAdd arr (constant (F := Ideal) S_ .f32 0x00000000#32) reducesTo_S8x4x23_S4x23_d0 h_S_ (ix2 r cc)
      = ∑ b : Fin 8, arr (ix3 b r cc) := by
  refine (hostReduceAdd_apply arr _ reducesTo_S8x4x23_S4x23_d0 h_S_ (ix2 r cc)).trans ?_
  refine (Ideal.hostReduceAdd_single reducesTo_S8x4x23_S4x23_d0 (by decide : S8x4x23.Reduces [0] S4x23) arr _ (ix2 r cc)).trans ?_
  show Ideal.ofBits .f32 0x00000000#32 + _ = _
  rw [Ideal.ofBits_zero_f32, zero_add]
  refine Finset.sum_congr rfl fun b _ => congrArg arr (funext fun a => Fin.ext ?_)
  match a with | ⟨0, _⟩ => rfl | ⟨1, _⟩ => rfl | ⟨2, _⟩ => rfl

/-- Row k of a [4, 23] array, cut out and its unit axis dropped, reads the array at (k, cc). -/
theorem cutRow_apply {α : Type} (X : S4x23.Idx → α) (k : Fin 4) (h : S4x23.Slices ![k.val, 0] S1x23) (cc : Fin 23) :
    shapeCast S23 (extractStridedSlice S1x23 ![k.val, 0] X h) shapeCasts_S1x23_S23 (ix1 cc) = X (ix2 k cc) :=
  (shapeCast_1a_a_apply _ shapeCasts_S1x23_S23 cc).trans
    (slice2_axis0_apply k.val X h (0 : Fin 1) cc k rfl)

/-- Row 0 of the batch sum: the intersections. -/
theorem row0_apply (arr : FVec Ideal S8x4x23 .f32) (cc : Fin 23) :
    shapeCast S23 (extractStridedSlice S1x23 ![0, 0]
        (Host.reduceAdd arr (constant (F := Ideal) S_ .f32 0x00000000#32) reducesTo_S8x4x23_S4x23_d0 h_S_) slices_S4x23_S1x23_0_0)
      shapeCasts_S1x23_S23 (ix1 cc) = ∑ b : Fin 8, arr (ix3 b (0 : Fin 4) cc) :=
  (cutRow_apply _ (0 : Fin 4) slices_S4x23_S1x23_0_0 cc).trans (batchSum_apply arr 0 cc)

/-- Row 1: the probability masses. -/
theorem row1_apply (arr : FVec Ideal S8x4x23 .f32) (cc : Fin 23) :
    shapeCast S23 (extractStridedSlice S1x23 ![1, 0]
        (Host.reduceAdd arr (constant (F := Ideal) S_ .f32 0x00000000#32) reducesTo_S8x4x23_S4x23_d0 h_S_) slices_S4x23_S1x23_1_0)
      shapeCasts_S1x23_S23 (ix1 cc) = ∑ b : Fin 8, arr (ix3 b (1 : Fin 4) cc) :=
  (cutRow_apply _ (1 : Fin 4) slices_S4x23_S1x23_1_0 cc).trans (batchSum_apply arr 1 cc)

/-- Row 2: the counts. -/
theorem row2_apply (arr : FVec Ideal S8x4x23 .f32) (cc : Fin 23) :
    shapeCast S23 (extractStridedSlice S1x23 ![2, 0]
        (Host.reduceAdd arr (constant (F := Ideal) S_ .f32 0x00000000#32) reducesTo_S8x4x23_S4x23_d0 h_S_) slices_S4x23_S1x23_2_0)
      shapeCasts_S1x23_S23 (ix1 cc) = ∑ b : Fin 8, arr (ix3 b (2 : Fin 4) cc) :=
  (cutRow_apply _ (2 : Fin 4) slices_S4x23_S1x23_2_0 cc).trans (batchSum_apply arr 2 cc)

/-- Row 3: the cross-entropy sums. -/
theorem row3_apply (arr : FVec Ideal S8x4x23 .f32) (cc : Fin 23) :
    shapeCast S23 (extractStridedSlice S1x23 ![3, 0]
        (Host.reduceAdd arr (constant (F := Ideal) S_ .f32 0x00000000#32) reducesTo_S8x4x23_S4x23_d0 h_S_) slices_S4x23_S1x23_3_0)
      shapeCasts_S1x23_S23 (ix1 cc) = ∑ b : Fin 8, arr (ix3 b (3 : Fin 4) cc) :=
  (cutRow_apply _ (3 : Fin 4) slices_S4x23_S1x23_3_0 cc).trans (batchSum_apply arr 3 cc)

/-- The sum over the classes of a per-class array, as a scalar. -/
theorem classSum_apply (v : FVec Ideal S23 .f32) :
    Host.reduceAdd v (constant (F := Ideal) S_ .f32 0x00000000#32) reducesTo_S23_S_d0 h_S_ = fun _ => ∑ cc : Fin 23, v (ix1 cc) := by
  funext j
  refine (hostReduceAdd_apply v _ reducesTo_S23_S_d0 h_S_ j).trans ?_
  refine (Ideal.hostReduceAdd_total reducesTo_S23_S_d0 (fun b => b.elim0) v _ j).trans ?_
  show Ideal.ofBits .f32 0x00000000#32 + _ = _
  rw [Ideal.ofBits_zero_f32, zero_add]
  exact Fintype.sum_equiv idxEquiv1 _ _ fun i => congrArg v (eq_ix1 i)

/-- The cross-entropy total: the sum over the classes and the batch of the last row. -/
theorem ceSum_apply (arr : FVec Ideal S8x4x23 .f32) :
    Host.reduceAdd
        (shapeCast S23 (extractStridedSlice S1x23 ![3, 0]
          (Host.reduceAdd arr (constant (F := Ideal) S_ .f32 0x00000000#32) reducesTo_S8x4x23_S4x23_d0 h_S_) slices_S4x23_S1x23_3_0)
          shapeCasts_S1x23_S23)
        (constant (F := Ideal) S_ .f32 0x00000000#32) reducesTo_S23_S_d0 h_S_
      = fun _ => ∑ cc : Fin 23, ∑ b : Fin 8, arr (ix3 b (3 : Fin 4) cc) := by
  rw [classSum_apply]
  funext _
  exact Finset.sum_congr rfl fun cc _ => row3_apply arr cc

end Cert.Loss.Rows

end
-- ==== Proof.KernelStats.lean ====
/-
  The kernel's loss in terms of the four statistics. Summed over the batch axis, row r of the statistics array
  at class cc is the sum over all pixels of what a pixel contributes to row r: rows 0, 1, 2 are the
  intersection, the probability mass and the count of class cc, and the sum of row 3 over the classes is the
  cross-entropy sum — each with the log-probability spelt `p - (log S + M)`.
-/
import proofs.«421351_j10479720202819_2_alg».proof.Proof.KernelRun
import proofs.«421351_j10479720202819_2_alg».proof.Proof.KernelSums
import proofs.«421351_j10479720202819_2_alg».proof.Proof.TailRows

set_option maxRecDepth 16384

noncomputable section

open Idealize.ShloMosaic Idealize.ShloMosaic.TcCoe Idealize.SL.Sem Idealize.ShloMosaic.ValueIdx

namespace Cert.KernelIdeal.Stats

open Cert.KernelIdeal Cert.KernelIdeal.Gen Cert.KernelIdeal.Arr Cert.KernelIdeal.Sums Cert.KernelIdeal.Run Cert.Loss Cert.Loss.Rows

variable (m : (ℓ : Loc nD τ sig) → Buf (Elt Ideal) ℓ)

theorem lossOf_eq (c : Dev nD) :
    lossOf (F := Ideal) (outArr m c) = tailV bcast_S_S23 reducesTo_S23_S_d0 h_S_
      (fun j => inter (argP m c) (argT m c) lpKv (j 0)) (fun j => sump (argP m c) lpKv (j 0))
      (fun j => cnt (argT m c) (j 0)) (fun _ => ce (argP m c) (argT m c) lpKv) := by
  have e0 : shapeCast S23 (extractStridedSlice S1x23 ![0, 0] (batchSum (outArr m c)) slices_S4x23_S1x23_0_0) shapeCasts_S1x23_S23
      = fun j => inter (argP m c) (argT m c) lpKv (j 0) := by
    funext j
    obtain ⟨cc, rfl⟩ : ∃ cc : Fin 23, j = ix1 cc := ⟨j 0, eq_ix1 j⟩
    refine (row0_apply (outArr m c) cc).trans ?_
    simp only [outArr_apply]
    rfl
  have e1 : shapeCast S23 (extractStridedSlice S1x23 ![1, 0] (batchSum (outArr m c)) slices_S4x23_S1x23_1_0) shapeCasts_S1x23_S23
      = fun j => sump (argP m c) lpKv (j 0) := by
    funext j
    obtain ⟨cc, rfl⟩ : ∃ cc : Fin 23, j = ix1 cc := ⟨j 0, eq_ix1 j⟩
    refine (row1_apply (outArr m c) cc).trans ?_
    simp only [outArr_apply]
    rfl
  have e2 : shapeCast S23 (extractStridedSlice S1x23 ![2, 0] (batchSum (outArr m c)) slices_S4x23_S1x23_2_0) shapeCasts_S1x23_S23
      = fun j => cnt (argT m c) (j 0) := by
    funext j
    obtain ⟨cc, rfl⟩ : ∃ cc : Fin 23, j = ix1 cc := ⟨j 0, eq_ix1 j⟩
    refine (row2_apply (outArr m c) cc).trans ?_
    simp only [outArr_apply]
    rfl
  have e3 : Host.reduceAdd (shapeCast S23 (extractStridedSlice S1x23 ![3, 0] (batchSum (outArr m c)) slices_S4x23_S1x23_3_0) shapeCasts_S1x23_S23)
        (constant (F := Ideal) S_ .f32 0x00000000#32) reducesTo_S23_S_d0 h_S_
      = fun _ => ce (argP m c) (argT m c) lpKv := by
    refine (ceSum_apply (outArr m c)).trans ?_
    funext _
    simp only [outArr_apply]
    rfl
  unfold lossOf
  rw [e0, e1, e2, e3]

end Cert.KernelIdeal.Stats

end
-- ==== Proof.LogProb.lean ====
/-
  One pixel of the loss: the two spellings of the log-probability agree when every logit is a real
  number, and the one-hot weights of a label inside the class range pick out exactly one class.
-/
import proofs.«421351_j10479720202819_2_alg».proof.Proof.Spec
import Mathlib.Data.EReal.Operations
import Mathlib.Data.Finset.Lattice.Fold
import Mathlib.Algebra.Order.BigOperators.Group.Finset
import Mathlib.Analysis.SpecialFunctions.Log.Basic

noncomputable section

namespace Cert.Loss

open Idealize.ShloMosaic

/-- The fold of `max` from `-∞` is the supremum of the logits. -/
theorem mxv_eq_sup (p : Fin 23 → EReal) : mxv p = (Finset.univ : Finset (Fin 23)).sup p := rfl

/-- The largest logit is one of the logits. -/
theorem mxv_mem (p : Fin 23 → EReal) : ∃ c, mxv p = p c := by
  obtain ⟨c, _, hc⟩ :=
    Finset.exists_mem_eq_sup (Finset.univ : Finset (Fin 23)) ⟨0, Finset.mem_univ _⟩ p
  exact ⟨c, (mxv_eq_sup p).trans hc⟩

/-- The coercion of the reals into the extended reals carries finite sums to finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real logits the shift may be added back to the log-sum first or subtracted from the logit
first: both are the real number `p c - M - log S`. -/
theorem lpKv_eq_lpRv (p : Fin 23 → EReal) (hp : ∀ c, ∃ r : ℝ, p c = (r : EReal)) :
    lpKv p = lpRv p := by
  choose r hr using hp
  obtain ⟨m, hm⟩ := mxv_mem p
  have hM : mxv p = ((r m : ℝ) : EReal) := by rw [hm, hr]
  have hS : sev p = ((∑ c : Fin 23, Real.exp (r c - r m) : ℝ) : EReal) := by
    rw [coe_sum_real]
    unfold sev
    refine Finset.sum_congr rfl fun c _ => ?_
    rw [hM, hr c, ← EReal.coe_sub, Ideal.exp_coe]
  have hpos : 0 < ∑ c : Fin 23, Real.exp (r c - r m) :=
    Finset.sum_pos (fun c _ => Real.exp_pos _) ⟨0, Finset.mem_univ _⟩
  have hL : Ideal.log (sev p) = ((Real.log (∑ c : Fin 23, Real.exp (r c - r m)) : ℝ) : EReal) := by
    rw [hS, Ideal.log_coe, if_neg (not_le.mpr hpos)]
  funext c
  unfold lpKv lpRv
  rw [hL, hM, hr c, ← EReal.coe_add, ← EReal.coe_sub, ← EReal.coe_sub, ← EReal.coe_sub]
  congr 1
  ring

/-- A label word below 23 is the word of exactly one class, its own value. -/
theorem ohv_eq (t : BitVec 32) (ht : t.toNat < 23) (c : Fin 23) :
    ohv t c = if c = ⟨t.toNat, ht⟩ then 1 else 0 := by
  unfold ohv
  have hiff : t = BitVec.ofNat 32 c.val ↔ c = ⟨t.toNat, ht⟩ := by
    constructor
    · intro h
      apply Fin.ext
      have h2 := congrArg BitVec.toNat h
      rw [BitVec.toNat_ofNat] at h2
      have hc : c.val % 2 ^ 32 = c.val := Nat.mod_eq_of_lt (by omega)
      simp only [hc] at h2
      exact h2.symm
    · intro h
      rw [h]
      apply BitVec.eq_of_toNat_eq
      rw [BitVec.toNat_ofNat]
      exact (Nat.mod_eq_of_lt t.isLt).symm
  simp only [hiff]

/-- Against a label inside the class range the one-hot weighted sum reads the label's class. -/
theorem sum_ohv_mul (t : BitVec 32) (ht : t.toNat < 23) (f : Fin 23 → EReal) :
    ∑ c : Fin 23, ohv t c * f c = f ⟨t.toNat, ht⟩ := by
  rw [Finset.sum_eq_single (⟨t.toNat, ht⟩ : Fin 23)]
  · rw [ohv_eq t ht, if_pos rfl, one_mul]
  · intro c _ hc
    rw [ohv_eq t ht, if_neg hc, zero_mul]
  · intro h
    exact absurd (Finset.mem_univ _) h

/-- The one-hot weights of a label inside the class range sum to one. -/
theorem sum_ohv (t : BitVec 32) (ht : t.toNat < 23) : ∑ c : Fin 23, ohv t c = 1 := by
  have h := sum_ohv_mul t ht (fun _ => 1)
  simpa only [mul_one] using h

end Cert.Loss

end
-- ==== Proof.RefStats.lean ====
/-
  The reference's four statistics as the sums of Spec.lean.

  The reference computes, from logits P of shape [8, 23, 512, 512] and labels T of shape [8, 1, 512, 512]:
  the log-softmax over the class axis, logp = (x - M) - log (sum of exp (x - M)) with M the largest logit of
  the pixel; the probabilities exp logp; the probability and the log-probability of each pixel's label class
  (a gather along the class axis at the label, the label first normalised and tested against the class range);
  and from these, per class, the intersection (a scatter-add of the label's probability by label), the
  probability mass (a sum over the batch and the two spatial axes) and the count (a scatter-add of ones by
  label), and the total of the label's log-probabilities.

  Under the hypothesis that every label word is below 23, each of the four is read here as the nested sum
  over the pixels' coordinates that Spec.lean defines: first the log-softmax at an index, then the label
  operations at an index, the gather and the scatter-add at an index from their dimension numbers, and last
  the re-indexing of the sums over index sets as sums over coordinates.
-/
import proofs.«421351_j10479720202819_2_alg».proof.Proof.Spec
import proofs.«421351_j10479720202819_2_alg».proof.Proof.LogProb
import proofs.«421351_j10479720202819_2_alg».proof.Proof.RefReadP
import Idealize.ShloMosaic.Lib.ValueIdx
import Idealize.ShloMosaic.Lib.IdealHost
import Idealize.ShloMosaic.Lib.StableHlo.Predicate
import Idealize.ShloMosaic.PureOps.Ideal.Laws
import Idealize.ShloMosaic.PureOps.Reduce
import Mathlib.Algebra.BigOperators.Fin
import Mathlib.Algebra.BigOperators.Group.Finset.Sigma

noncomputable section

namespace Cert.Loss.Ref

open Cert.ReferenceIdeal Cert.ReferenceIdeal.ReadP Cert.Loss Idealize.ShloMosaic Idealize.ShloMosaic.ValueIdx
open scoped BigOperators

/-! ## Bit patterns -/

/-- The f32 pattern of minus infinity is the bottom extended real. -/
theorem ofBits_neg_inf : Ideal.ofBits .f32 0xFF800000#32 = (⊥ : EReal) := by
  simp [Ideal.ofBits, Ideal.ieee]

/-! ## The log-softmax at an index -/

/-- The logits' shape with the class axis removed is the pixels' shape. -/
theorem red1 : S8x23x512x512.Reduces [1] S8x512x512 := by decide

/-- Pixel (b, h, w) with class k inserted on the class axis. -/
theorem lift1 (b : Fin 8) (h w : Fin 512) (k : Fin 23) : red1.lift (ix3 b h w) k = ix4 b k h w := by
  funext a; apply Fin.ext
  match a with
  | ⟨0, _⟩ => rfl
  | ⟨1, _⟩ => rfl
  | ⟨2, _⟩ => rfl
  | ⟨3, _⟩ => rfl

/-- The max-reduction over the class axis, at a pixel, is the pixel's largest logit. -/
theorem max_at (P : FVec Ideal S8x23x512x512 .f32) (b : Fin 8) (h w : Fin 512) :
    val_main_call0_v0 (F := Ideal) P (ix3 b h w) = mxv (px P b h w) := by
  unfold val_main_call0_v0
  rw [Host.reduce_eq_fold_single FloatOps.maximumf P (val_main_call0_cst (F := Ideal))
    Facts₀.reducesTo_S8x23x512x512_S8x512x512_d1 red1 Facts₀.h_S_ (ix3 b h w)]
  have hf : P ∘ red1.lift (ix3 b h w) = px P b h w := funext fun k => by
    exact congrArg P (lift1 b h w k)
  rw [hf]
  show Finset.fold max (Ideal.ofBits .f32 0xFF800000#32) (px P b h w) Finset.univ = mxv (px P b h w)
  rw [ofBits_neg_inf]
  rfl

/-- The shifted logit at an index. -/
theorem shift_at (P : FVec Ideal S8x23x512x512 .f32) (b : Fin 8) (c : Fin 23) (h w : Fin 512) :
    val_main_call0_v5 (F := Ideal) P (ix4 b c h w) = px P b h w c - mxv (px P b h w) := by
  rw [val_main_call0_v5_apply, val_main_call0_v4_apply, val_main_call0_v3_apply, val_main_call0_v2_apply]
  have hi : idx_main_call0_v3 (idx_main_call0_v4 (ix4 b c h w)) = ix3 b h w := by
    funext a
    match a with
    | ⟨0, _⟩ => rfl
    | ⟨1, _⟩ => rfl
    | ⟨2, _⟩ => rfl
  rw [hi, max_at]
  show P (ix4 b c h w) - max (Ideal.ofBits .f32 0xFF800000#32) (mxv (px P b h w)) = _
  rw [ofBits_neg_inf, max_bot_left]
  rfl

/-- The sum of the shifted exponentials at a pixel. -/
theorem sumexp_at (P : FVec Ideal S8x23x512x512 .f32) (b : Fin 8) (h w : Fin 512) :
    val_main_call0_v7 (F := Ideal) P (ix3 b h w) = sev (px P b h w) := by
  rw [val_main_call0_v7_apply]
  show Ideal.ofBits .f32 0x00000000#32 + _ = _
  rw [Ideal.ofBits_zero_f32, zero_add]
  unfold sev
  refine Finset.sum_congr rfl fun k _ => ?_
  have hi : idx_main_call0_v7 (ix3 b h w) k = ix4 b k h w := by
    funext a
    match a with
    | ⟨0, _⟩ => rfl
    | ⟨1, _⟩ => rfl
    | ⟨2, _⟩ => rfl
    | ⟨3, _⟩ => rfl
  rw [hi, val_main_call0_v6_apply, shift_at]
  rfl

/-- The reference's log-softmax at an index is the log-probability with the shift subtracted first. -/
theorem logp_at (P : FVec Ideal S8x23x512x512 .f32) (b : Fin 8) (c : Fin 23) (h w : Fin 512) :
    val_main_v1 (F := Ideal) P (ix4 b c h w) = lpRv (px P b h w) c := by
  rw [val_main_v1_apply, shift_at, val_main_call0_v10_apply, val_main_call0_v9_apply, val_main_call0_v8_apply]
  have hi : idx_main_call0_v8 (idx_main_call0_v10 (ix4 b c h w)) = ix3 b h w := by
    funext a
    match a with
    | ⟨0, _⟩ => rfl
    | ⟨1, _⟩ => rfl
    | ⟨2, _⟩ => rfl
  rw [hi, sumexp_at]
  rfl

/-- The reference's probabilities at an index. -/
theorem prob_at (P : FVec Ideal S8x23x512x512 .f32) (b : Fin 8) (c : Fin 23) (h w : Fin 512) :
    val_main_v2 (F := Ideal) P (ix4 b c h w) = Ideal.exp (lpRv (px P b h w) c) := by
  rw [val_main_v2_apply, logp_at]
  rfl

/-! ## The labels at an index -/

/-- A pixel with the unit axis put back. -/
theorem pix_idx (b : Fin 8) (h w : Fin 512) : idx_main_v0 (ix3 b h w) = ix4 b (0 : Fin 1) h w := by
  funext a; apply Fin.ext
  have hb := b.isLt; have hh := h.isLt; have hw := w.isLt
  match a with
  | ⟨0, _⟩ =>
    show ((b.val * 512 + h.val) * 512 + w.val) / 262144 = b.val
    omega
  | ⟨1, _⟩ => rfl
  | ⟨2, _⟩ =>
    show ((b.val * 512 + h.val) * 512 + w.val) / 512 % 512 = h.val
    omega
  | ⟨3, _⟩ =>
    show ((b.val * 512 + h.val) * 512 + w.val) % 512 = w.val
    omega

/-- The labels with the unit axis dropped, at a pixel. -/
theorem lab3_at (T : IVec S8x1x512x512 32) (b : Fin 8) (h w : Fin 512) :
    val_main_v0 (F := Ideal) T (ix3 b h w) = lab T b h w := by
  rw [val_main_v0_apply, pix_idx]
  rfl

/-- The labels with the unit axis put back, at an index. -/
theorem lab4_at (T : IVec S8x1x512x512 32) (b : Fin 8) (z : Fin 1) (h w : Fin 512) :
    val_main_v3 (F := Ideal) T (ix4 b z h w) = lab T b h w := by
  rw [val_main_v3_apply]
  have hi : idx_main_v3 (ix4 b z h w) = ix3 b h w := by
    funext a
    match a with
    | ⟨0, _⟩ => rfl
    | ⟨1, _⟩ => rfl
    | ⟨2, _⟩ => rfl
  rw [hi, lab3_at]

/-- A label word in the class range is not negative: the index normalisation keeps it. -/
theorem norm_label (t : BitVec 32) (ht : t.toNat < 23) :
    Scalar.select (IntOp.cmpi .slt t 0#32) (IntOp.addi t 23#32) t = t := by
  unfold Scalar.select
  rw [if_neg]
  intro hc
  have h0 := (StableHlo.Predicate.slt_iff_toNat (a := t) (b := 0#32) (by omega) (by decide)).mp hc
  simp at h0

/-- A label word in the class range passes the range test. -/
theorem in_range (t : BitVec 32) (ht : t.toNat < 23) :
    IntOp.andi (IntOp.cmpi .sge t 0#32) (IntOp.cmpi .sle t 22#32) = 1#1 := by
  have h1 : IntOp.cmpi .sge t 0#32 = 1#1 :=
    (StableHlo.Predicate.sge_iff_toNat (a := t) (b := 0#32) (by omega) (by decide)).mpr (Nat.zero_le _)
  have h2 : IntOp.cmpi .sle t 22#32 = 1#1 :=
    (StableHlo.Predicate.sle_iff_toNat (a := t) (b := 22#32) (by omega) (by decide)).mpr (by
      show t.toNat ≤ 22
      omega)
  rw [h1, h2]
  rfl

/-- The normalised start indices, at an index, are the label. -/
theorem idx5_at (T : IVec S8x1x512x512 32) (hT : ∀ i, (T i).toNat < 23) (b : Fin 8) (z : Fin 1) (h w : Fin 512)
    (z' : Fin 1) : val_main_call1_v5 (F := Ideal) T (ix5 b z h w z') = lab T b h w := by
  rw [val_main_call1_v5_apply]
  have hi : idx_main_call1_v5 (ix5 b z h w z') = ix4 b (0 : Fin 1) h w := by
    funext a; apply Fin.ext
    have hb := b.isLt; have hh := h.isLt; have hw := w.isLt; have hz := z.isLt; have hz' := z'.isLt
    match a with
    | ⟨0, _⟩ =>
      show ((((b.val * 1 + z.val) * 512 + h.val) * 512 + w.val) * 1 + z'.val) / 262144 = b.val
      omega
    | ⟨1, _⟩ => rfl
    | ⟨2, _⟩ =>
      show ((((b.val * 1 + z.val) * 512 + h.val) * 512 + w.val) * 1 + z'.val) / 512 % 512 = h.val
      omega
    | ⟨3, _⟩ =>
      show ((((b.val * 1 + z.val) * 512 + h.val) * 512 + w.val) * 1 + z'.val) % 512 = w.val
      omega
  rw [hi, val_main_call1_v4_apply, val_main_call1_v1_apply, val_main_call1_v3_apply, lab4_at,
    val_main_call1_v0_apply, val_main_call1_c_apply, val_main_call1_v2_apply, val_main_call1_c_0_apply]
  exact norm_label _ (hT (ix4 b (0 : Fin 1) h w))

/-- The start indices' shape with the index-vector axis removed is the labels' shape. -/
theorem red4 : S8x1x512x512x1.Reduces [4] S8x1x512x512 := by decide

theorem lift4 (b : Fin 8) (z : Fin 1) (h w : Fin 512) (k : Fin 1) :
    red4.lift (ix4 b z h w) k = ix5 b z h w k := by
  funext a; apply Fin.ext
  match a with
  | ⟨0, _⟩ => rfl
  | ⟨1, _⟩ => rfl
  | ⟨2, _⟩ => rfl
  | ⟨3, _⟩ => rfl
  | ⟨4, _⟩ => rfl

/-- A conjunction over one element, from true, is that element's bit. -/
theorem fold_and_one (f : Fin 1 → BitVec 1) :
    (Finset.univ : Finset (Fin 1)).fold IntOp.andi 1#1 f = IntOp.andi (f 0) 1#1 := by
  rw [Finset.univ_unique, Finset.fold_singleton]
  rfl

/-- Every label in the class range passes the gather's range test. -/
theorem inrange_at (T : IVec S8x1x512x512 32) (hT : ∀ i, (T i).toNat < 23) (b : Fin 8) (z : Fin 1) (h w : Fin 512) :
    val_main_call1_v12 (F := Ideal) T (ix4 b z h w) = 1#1 := by
  unfold val_main_call1_v12
  rw [Host.reduce_eq_fold_single IntOp.andi (val_main_call1_v11 (F := Ideal) T) (val_main_call1_c_3 (F := Ideal))
    Facts₀.reducesTo_S8x1x512x512x1_S8x1x512x512_d4 red4 Facts₀.h_S_ (ix4 b z h w)]
  refine (fold_and_one _).trans ?_
  show IntOp.andi (val_main_call1_v11 (F := Ideal) T (red4.lift (ix4 b z h w) (0 : Fin 1))) 1#1 = 1#1
  rw [lift4, val_main_call1_v11_apply, val_main_call1_v7_apply, val_main_call1_v10_apply, idx5_at T hT,
    val_main_call1_v6_apply, val_main_call1_c_2_apply, val_main_call1_v9_apply, val_main_call1_v8_apply,
    val_main_call1_c_1_apply, in_range (lab T b h w) (hT (ix4 b (0 : Fin 1) h w))]
  rfl

/-! ## The gather at an index -/

local notation "gd" => gather_S8x23x512x512_S8x1x512x512x1_S8x1x512x512_n_1_023_023_1_4_1111

/-- The gather reads, at (b, z, h, w), the operand at (b, start, h, w), the start index read signed and
clamped into the class range. -/
theorem gather_at (V : FVec Ideal S8x23x512x512 .f32) (idx : IVec S8x1x512x512x1 32) (b : Fin 8) (z : Fin 1)
    (h w : Fin 512) :
    Host.gather gd V idx (ix4 b z h w)
      = V (ix4 b (⟨min (idx (ix5 b z h w (0 : Fin 1))).toInt.toNat 22, by omega⟩ : Fin 23) h w) := by
  unfold Host.gather
  refine congrArg V ?_
  funext a; apply Fin.ext
  match a with
  | ⟨0, _⟩ =>
    show GatherDims.start gd (ix4 b z h w) idx (0 : Fin 4) + GatherDims.batchCoord gd (ix4 b z h w) (0 : Fin 4)
      + GatherDims.offCoord gd (ix4 b z h w) (0 : Fin 4) = b.val
    have h1 : GatherDims.start gd (ix4 b z h w) idx (0 : Fin 4) = 0 := rfl
    have h2 : GatherDims.batchCoord gd (ix4 b z h w) (0 : Fin 4) = b.val := rfl
    have h3 : GatherDims.offCoord gd (ix4 b z h w) (0 : Fin 4) = 0 := rfl
    rw [h1, h2, h3]
    omega
  | ⟨1, _⟩ =>
    show GatherDims.start gd (ix4 b z h w) idx (1 : Fin 4) + GatherDims.batchCoord gd (ix4 b z h w) (1 : Fin 4)
      + GatherDims.offCoord gd (ix4 b z h w) (1 : Fin 4) = _
    rw [GatherDims.batchCoord_eq_zero gd _ (1 : Fin 4) (by decide), GatherDims.offCoord_eq_zero gd _ (1 : Fin 4) (by decide)]
    simp only [Nat.add_zero]
    unfold GatherDims.start
    rw [dif_pos (show (1 : Fin 4) ∈ GatherDims.startIndexMap gd from List.mem_singleton.mpr rfl)]
    have hsi : GatherDims.siIdx gd (ix4 b z h w) ⟨List.idxOf (1 : Fin 4) (GatherDims.startIndexMap gd),
        List.idxOf_lt_length_iff.2 (List.mem_singleton.mpr rfl)⟩ = ix5 b z h w (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨2, _⟩ =>
    show GatherDims.start gd (ix4 b z h w) idx (2 : Fin 4) + GatherDims.batchCoord gd (ix4 b z h w) (2 : Fin 4)
      + GatherDims.offCoord gd (ix4 b z h w) (2 : Fin 4) = h.val
    have h1 : GatherDims.start gd (ix4 b z h w) idx (2 : Fin 4) = 0 := rfl
    have h2 : GatherDims.batchCoord gd (ix4 b z h w) (2 : Fin 4) = h.val := rfl
    have h3 : GatherDims.offCoord gd (ix4 b z h w) (2 : Fin 4) = 0 := rfl
    rw [h1, h2, h3]
    omega
  | ⟨3, _⟩ =>
    show GatherDims.start gd (ix4 b z h w) idx (3 : Fin 4) + GatherDims.batchCoord gd (ix4 b z h w) (3 : Fin 4)
      + GatherDims.offCoord gd (ix4 b z h w) (3 : Fin 4) = w.val
    have h1 : GatherDims.start gd (ix4 b z h w) idx (3 : Fin 4) = 0 := rfl
    have h2 : GatherDims.batchCoord gd (ix4 b z h w) (3 : Fin 4) = w.val := rfl
    have h3 : GatherDims.offCoord gd (ix4 b z h w) (3 : Fin 4) = 0 := rfl
    rw [h1, h2, h3]
    omega

/-- For a start index that is a label word in the class range the gather reads the label's class. -/
theorem gather_lab (V : FVec Ideal S8x23x512x512 .f32) (idx : IVec S8x1x512x512x1 32) (b : Fin 8) (z : Fin 1)
    (h w : Fin 512) (t : BitVec 32) (ht : t.toNat < 23) (hidx : idx (ix5 b z h w (0 : Fin 1)) = t) :
    Host.gather gd V idx (ix4 b z h w) = V (ix4 b (⟨t.toNat, ht⟩ : Fin 23) h w) := by
  rw [gather_at]
  refine congrArg V ?_
  funext a; apply Fin.ext
  match a with
  | ⟨0, _⟩ => rfl
  | ⟨1, _⟩ =>
    show min (idx (ix5 b z h w (0 : Fin 1))).toInt.toNat 22 = t.toNat
    rw [hidx, StableHlo.Predicate.toInt_eq_toNat_of_lt (by omega), Int.toNat_natCast]
    omega
  | ⟨2, _⟩ => rfl
  | ⟨3, _⟩ => rfl

/-- take_along_axis of the probabilities at an index, for labels in the class range. -/
theorem pt_at (P : FVec Ideal S8x23x512x512 .f32) (T : IVec S8x1x512x512 32) (hT : ∀ i, (T i).toNat < 23)
    (b : Fin 8) (z : Fin 1) (h w : Fin 512) :
    val_main_v4 (F := Ideal) P T (ix4 b z h w)
      = Ideal.exp (lpRv (px P b h w) (⟨(lab T b h w).toNat, hT (ix4 b (0 : Fin 1) h w)⟩ : Fin 23)) := by
  rw [val_main_v4_apply, inrange_at T hT, select_one]
  unfold val_main_call1_v13
  rw [gather_lab _ _ b z h w (lab T b h w) (hT (ix4 b (0 : Fin 1) h w)) (idx5_at T hT b z h w (0 : Fin 1)), prob_at]

/-- The second call of take_along_axis has the first call's index operations. -/
theorem call2_v12_eq (T : IVec S8x1x512x512 32) :
    val_main_call2_v12 (F := Ideal) T = val_main_call1_v12 (F := Ideal) T := rfl
theorem call2_v5_eq (T : IVec S8x1x512x512 32) :
    val_main_call2_v5 (F := Ideal) T = val_main_call1_v5 (F := Ideal) T := rfl

/-- take_along_axis of the log-probabilities at an index, for labels in the class range. -/
theorem lpt_at (P : FVec Ideal S8x23x512x512 .f32) (T : IVec S8x1x512x512 32) (hT : ∀ i, (T i).toNat < 23)
    (b : Fin 8) (z : Fin 1) (h w : Fin 512) :
    val_main_v30 (F := Ideal) P T (ix4 b z h w)
      = lpRv (px P b h w) (⟨(lab T b h w).toNat, hT (ix4 b (0 : Fin 1) h w)⟩ : Fin 23) := by
  rw [val_main_v30_apply, call2_v12_eq, inrange_at T hT, select_one]
  unfold val_main_call2_v13
  rw [call2_v5_eq, gather_lab _ _ b z h w (lab T b h w) (hT (ix4 b (0 : Fin 1) h w)) (idx5_at T hT b z h w (0 : Fin 1)),
    logp_at]

/-! ## The scatter-add at a class -/

local notation "sd" => scatter_S23_S2097152x1_S2097152_n_0_0_1

/-- An update whose index word is in the class range lands on that class. -/
theorem scatter_result (idx : IVec S2097152x1 32) (i : S2097152.Idx)
    (ht : (idx (ix2 (i 0) (0 : Fin 1))).toNat < 23) :
    ScatterDims.resultIdx? sd i idx = some (ix1 (⟨(idx (ix2 (i 0) (0 : Fin 1))).toNat, ht⟩ : Fin 23)) := by
  have hstart : ScatterDims.start sd i idx (0 : Fin 1) = ((idx (ix2 (i 0) (0 : Fin 1))).toNat : ℤ) := by
    unfold ScatterDims.start
    rw [dif_pos (show (0 : Fin 1) ∈ ScatterDims.scatterDimsToOperandDims sd from List.mem_singleton.mpr rfl)]
    have hsi : ScatterDims.siIdx sd i ⟨List.idxOf (0 : Fin 1) (ScatterDims.scatterDimsToOperandDims sd),
        List.idxOf_lt_length_iff.2 (List.mem_singleton.mpr rfl)⟩ = ix2 (i 0) (0 : Fin 1) := by
      funext c; refine Fin.ext ?_
      match c with
      | ⟨0, _⟩ => rfl
      | ⟨1, _⟩ => rfl
    rw [hsi]
    have hlt : (idx (ix2 (i 0) (0 : Fin 1))).toNat < 2 ^ 31 := lt_trans ht (by norm_num)
    exact StableHlo.Predicate.toInt_eq_toNat_of_lt hlt
  have hwin : ScatterDims.window sd i (0 : Fin 1) = 0 := rfl
  have hall : ∀ a, 0 ≤ ScatterDims.start sd i idx a + ScatterDims.window sd i a
      ∧ ScatterDims.start sd i idx a + ScatterDims.window sd i a < S23.size a := by
    intro a
    match a with
    | ⟨0, _⟩ =>
      show 0 ≤ ScatterDims.start sd i idx (0 : Fin 1) + ((ScatterDims.window sd i (0 : Fin 1) : ℕ) : ℤ)
        ∧ ScatterDims.start sd i idx (0 : Fin 1) + ((ScatterDims.window sd i (0 : Fin 1) : ℕ) : ℤ) < ((23 : ℕ) : ℤ)
      rw [hstart, hwin]
      omega
  unfold ScatterDims.resultIdx?
  rw [dif_pos hall]
  refine congrArg some ?_
  funext a; apply Fin.ext
  match a with
  | ⟨0, _⟩ =>
    show (ScatterDims.start sd i idx (0 : Fin 1) + ((ScatterDims.window sd i (0 : Fin 1) : ℕ) : ℤ)).toNat
      = (idx (ix2 (i 0) (0 : Fin 1))).toNat
    rw [hstart, hwin]
    omega

/-- A one-hot weight times a function at the label's class is the weight times the function at the class. -/
theorem ohv_mul_pick (t : BitVec 32) (ht : t.toNat < 23) (f : Fin 23 → EReal) (c : Fin 23) :
    ohv t c * f ⟨t.toNat, ht⟩ = ohv t c * f c := by
  by_cases hc : c = ⟨t.toNat, ht⟩
  · rw [← hc]
  · rw [ohv_eq t ht, if_neg hc, zero_mul, zero_mul]

/-- The scatter-add at class c: the operand there plus the updates weighted by the one-hot weight of
their index words. -/
theorem scatter_at (x0 : FVec Ideal S23 .f32) (idx : IVec S2097152x1 32) (upd : FVec Ideal S2097152 .f32)
    (hidx : ∀ i : S2097152.Idx, (idx (ix2 (i 0) (0 : Fin 1))).toNat < 23) (c : Fin 23) :
    Host.scatterAdd (F := Ideal) sd x0 idx upd (ix1 c)
      = x0 (ix1 c) + ∑ i : S2097152.Idx, ohv (idx (ix2 (i 0) (0 : Fin 1))) c * upd i := by
  show Ideal.hostScatterAdd sd x0 idx upd (ix1 c) = _
  unfold Ideal.hostScatterAdd
  refine congrArg (x0 (ix1 c) + ·) ?_
  rw [Finset.sum_filter]
  refine Finset.sum_congr rfl fun i _ => ?_
  rw [scatter_result idx i (hidx i), ohv_eq _ (hidx i)]
  by_cases hc : c = ⟨(idx (ix2 (i 0) (0 : Fin 1))).toNat, hidx i⟩
  · rw [if_pos hc, one_mul, if_pos (by rw [hc])]
  · rw [if_neg hc, zero_mul, if_neg]
    intro he
    apply hc
    have h0 := congrArg (fun k : S23.Idx => k 0) (Option.some.inj he)
    exact h0.symm

/-! ## Sums over index sets as sums over coordinates -/

/-- The flat position of pixel (b, h, w). -/
def flat (b : Fin 8) (h w : Fin 512) : S2097152.Idx :=
  ix1 (⟨(b.val * 512 + h.val) * 512 + w.val, by
    have := b.isLt; have := h.isLt; have := w.isLt; omega⟩ : Fin 2097152)

/-- A flat position is a pixel. -/
def pixEquiv : S2097152.Idx ≃ Fin 8 × Fin 512 × Fin 512 where
  toFun i :=
    (⟨(i 0).val / 262144, by have h0 : (i 0).val < 2097152 := (i 0).isLt; omega⟩,
     ⟨(i 0).val / 512 % 512, by omega⟩,
     ⟨(i 0).val % 512, by omega⟩)
  invFun p := flat p.1 p.2.1 p.2.2
  left_inv i := by
    funext a; apply Fin.ext
    have h0 : (i 0).val < 2097152 := (i 0).isLt
    match a with
    | ⟨0, _⟩ =>
      show ((i 0).val / 262144 * 512 + (i 0).val / 512 % 512) * 512 + (i 0).val % 512 = (i 0).val
      omega
  right_inv p := by
    obtain ⟨b, h, w⟩ := p
    have hb := b.isLt; have hh := h.isLt; have hw := w.isLt
    refine Prod.ext (Fin.ext ?_) (Prod.ext (Fin.ext ?_) (Fin.ext ?_))
    · show ((b.val * 512 + h.val) * 512 + w.val) / 262144 = b.val
      omega
    · show ((b.val * 512 + h.val) * 512 + w.val) / 512 % 512 = h.val
      omega
    · show ((b.val * 512 + h.val) * 512 + w.val) % 512 = w.val
      omega

/-- A sum over the flat positions is the sum over the pixels' coordinates. -/
theorem sum_flat (g : S2097152.Idx → EReal) :
    ∑ i, g i = ∑ b : Fin 8, ∑ h : Fin 512, ∑ w : Fin 512, g (flat b h w) := by
  rw [← Equiv.sum_comp pixEquiv.symm g, Fintype.sum_prod_type]
  refine Finset.sum_congr rfl fun b _ => ?_
  rw [Fintype.sum_prod_type]
  rfl

/-- A sum over a rank-4 index set is the sum over the four coordinates. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {n0 n1 n2 n3 : Nat} (f : (⟨4, ![n0, n1, n2, n3]⟩ : Shape).Idx → EReal) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The four statistics -/

/-- The pixel of a flat position. -/
theorem flat_idx (b : Fin 8) (h w : Fin 512) : idx_main_v6 (flat b h w) = ix3 b h w := by
  funext a; apply Fin.ext
  have hb := b.isLt; have hh := h.isLt; have hw := w.isLt
  match a with
  | ⟨0, _⟩ =>
    show ((b.val * 512 + h.val) * 512 + w.val) / 262144 = b.val
    omega
  | ⟨1, _⟩ =>
    show ((b.val * 512 + h.val) * 512 + w.val) / 512 % 512 = h.val
    omega
  | ⟨2, _⟩ =>
    show ((b.val * 512 + h.val) * 512 + w.val) % 512 = w.val
    omega

/-- The flat labels at a pixel's flat position. -/
theorem lab_flat (T : IVec S8x1x512x512 32) (b : Fin 8) (h w : Fin 512) :
    val_main_v6 (F := Ideal) T (flat b h w) = lab T b h w := by
  rw [val_main_v6_apply, flat_idx, lab3_at]

/-- The scatter indices at an update position are the flat labels there. -/
theorem idx_col (T : IVec S8x1x512x512 32) (i : S2097152.Idx) :
    val_main_v9 (F := Ideal) T (ix2 (i 0) (0 : Fin 1)) = val_main_v6 (F := Ideal) T i := by
  rw [val_main_v9_apply]
  refine congrArg _ ?_
  funext a
  match a with
  | ⟨0, _⟩ => rfl

/-- Every scatter index is a label, so in the class range. -/
theorem idx_col_lt (T : IVec S8x1x512x512 32) (hT : ∀ i, (T i).toNat < 23) (i : S2097152.Idx) :
    (val_main_v9 (F := Ideal) T (ix2 (i 0) (0 : Fin 1))).toNat < 23 := by
  rw [idx_col, val_main_v6_apply, val_main_v0_apply]
  exact hT _

/-- The gathered probabilities at a pixel's flat position. -/
theorem upd_flat (P : FVec Ideal S8x23x512x512 .f32) (T : IVec S8x1x512x512 32) (hT : ∀ i, (T i).toNat < 23)
    (b : Fin 8) (h w : Fin 512) :
    val_main_v7 (F := Ideal) P T (flat b h w)
      = Ideal.exp (lpRv (px P b h w) (⟨(lab T b h w).toNat, hT (ix4 b (0 : Fin 1) h w)⟩ : Fin 23)) := by
  have hi : idx_main_v7 (flat b h w) = ix3 b h w := flat_idx b h w
  have hj : idx_main_v5 (ix3 b h w) = ix4 b (0 : Fin 1) h w := pix_idx b h w
  rw [val_main_v7_apply, hi, val_main_v5_apply, hj, pt_at P T hT]

/-- The intersections: the scatter-add of the gathered probabilities by label. -/
theorem inter_eq (P : FVec Ideal S8x23x512x512 .f32) (T : IVec S8x1x512x512 32) (hT : ∀ i, (T i).toNat < 23) :
    val_main_v10 (F := Ideal) P T = fun j => inter P T lpRv (j 0) := by
  funext j
  obtain ⟨c, rfl⟩ : ∃ c : Fin 23, j = ix1 c := ⟨j 0, eq_ix1 j⟩
  show val_main_v10 (F := Ideal) P T (ix1 c) = inter P T lpRv c
  unfold val_main_v10
  rw [scatter_at _ _ _ (idx_col_lt T hT) c, val_main_v8_apply, val_main_cst_apply, Ideal.ofBits_def,
    Ideal.ofBits_zero_f32, zero_add, sum_flat]
  unfold inter
  refine Finset.sum_congr rfl fun b _ => Finset.sum_congr rfl fun h _ => Finset.sum_congr rfl fun w _ => ?_
  rw [idx_col, lab_flat, upd_flat P T hT]
  exact ohv_mul_pick (lab T b h w) (hT _) (fun k => Ideal.exp (lpRv (px P b h w) k)) c

/-- The counts: the scatter-add of ones by label. -/
theorem cnt_eq (T : IVec S8x1x512x512 32) (hT : ∀ i, (T i).toNat < 23) :
    val_main_v16 (F := Ideal) T = fun j => cnt T (j 0) := by
  funext j
  obtain ⟨c, rfl⟩ : ∃ c : Fin 23, j = ix1 c := ⟨j 0, eq_ix1 j⟩
  show val_main_v16 (F := Ideal) T (ix1 c) = cnt T c
  unfold val_main_v16
  have h15 : val_main_v15 (F := Ideal) T = val_main_v9 (F := Ideal) T := rfl
  rw [h15, scatter_at _ _ _ (idx_col_lt T hT) c, val_main_v14_apply, val_main_cst_2_apply, Ideal.ofBits_def,
    Ideal.ofBits_zero_f32, zero_add, sum_flat]
  unfold cnt
  refine Finset.sum_congr rfl fun b _ => Finset.sum_congr rfl fun h _ => Finset.sum_congr rfl fun w _ => ?_
  rw [idx_col, lab_flat, val_main_v13_apply, val_main_cst_1_apply, Ideal.ofBits_def, Ideal.ofBits_one_f32, mul_one]

/-- Dropping every axis but the class axis leaves the class. -/
theorem drop_class (b : Fin 8) (k : Fin 23) (h w : Fin 512) :
    Shape.ReducesTo.drop Facts₀.reducesTo_S8x23x512x512_S23_d0_2_3 (ix4 b k h w) = ix1 k := by
  funext a; apply Fin.ext
  match a with
  | ⟨0, _⟩ => rfl

/-- The probability mass: the sum over the batch and the two spatial axes. -/
theorem sump_eq (P : FVec Ideal S8x23x512x512 .f32) :
    val_main_v11 (F := Ideal) P = fun j => sump P lpRv (j 0) := by
  funext j
  obtain ⟨c, rfl⟩ : ∃ c : Fin 23, j = ix1 c := ⟨j 0, eq_ix1 j⟩
  show val_main_v11 (F := Ideal) P (ix1 c) = sump P lpRv c
  unfold val_main_v11
  rw [hostReduceAdd_apply]
  unfold Ideal.hostReduceAdd
  show Ideal.ofBits .f32 0x00000000#32 + _ = _
  rw [Ideal.ofBits_zero_f32, zero_add, Finset.sum_filter, sum_idx4]
  unfold sump
  refine Finset.sum_congr rfl fun b _ => ?_
  rw [Finset.sum_eq_single c]
  · refine Finset.sum_congr rfl fun h _ => Finset.sum_congr rfl fun w _ => ?_
    rw [if_pos (drop_class b c h w), prob_at]
  · intro k _ hk
    refine Finset.sum_eq_zero fun h _ => Finset.sum_eq_zero fun w _ => if_neg ?_
    rw [drop_class]
    intro he
    exact hk (congrArg (fun q : S23.Idx => q 0) he)
  · intro hc
    exact absurd (Finset.mem_univ c) hc

/-- The cross-entropy sum with the sum over the classes innermost. -/
theorem ce_swap (P : FVec Ideal S8x23x512x512 .f32) (T : IVec S8x1x512x512 32)
    (lp : (Fin 23 → EReal) → Fin 23 → EReal) :
    ce P T lp = ∑ b : Fin 8, ∑ h : Fin 512, ∑ w : Fin 512, ∑ c : Fin 23, ohv (lab T b h w) c * lp (px P b h w) c := by
  unfold ce
  rw [Finset.sum_comm]
  refine Finset.sum_congr rfl fun b _ => ?_
  rw [Finset.sum_comm]
  refine Finset.sum_congr rfl fun h _ => ?_
  rw [Finset.sum_comm]

/-- The cross-entropy sum: the total of the gathered log-probabilities. -/
theorem ce_eq (P : FVec Ideal S8x23x512x512 .f32) (T : IVec S8x1x512x512 32) (hT : ∀ i, (T i).toNat < 23) :
    val_main_v31 (F := Ideal) P T = fun _ => ce P T lpRv := by
  funext i
  rw [val_main_v31_apply]
  show Ideal.ofBits .f32 0x00000000#32 + _ = _
  rw [Ideal.ofBits_zero_f32, zero_add, sum_idx4, ce_swap]
  refine Finset.sum_congr rfl fun b _ => ?_
  rw [Fin.sum_univ_one]
  refine Finset.sum_congr rfl fun h _ => Finset.sum_congr rfl fun w _ => ?_
  rw [lpt_at P T hT]
  exact (sum_ohv_mul (lab T b h w) (hT _) (fun k => lpRv (px P b h w) k)).symm

end Cert.Loss.Ref

end
-- ==== Proof.RefTail.lean ====
/-
  The reference's result is the shared chain of array operations (the dice ratios' mean and the cross-entropy
  mean, halved and added) applied to its four statistics: by unfolding the stages.
-/
import proofs.«421351_j10479720202819_2_alg».proof.Proof.RefReadP
import proofs.«421351_j10479720202819_2_alg».proof.Proof.Tail

noncomputable section

namespace Cert.Loss.RefTail

open Cert.ReferenceIdeal Cert.ReferenceIdeal.Gen Cert.ReferenceIdeal.ReadP Cert.Loss Idealize.ShloMosaic

variable {F : FTy → Type} [FloatOps F]

theorem val_eq (P : (⟨S8x23x512x512, .f32⟩ : BufTy).Contents (Elt F)) (T : (⟨S8x1x512x512, .i32⟩ : BufTy).Contents (Elt F)) :
    val_main_v36 (F := F) P T = tailV bcast_S_S23 reducesTo_S23_S_d0 h_S_
      (val_main_v10 (F := F) P T) (val_main_v11 (F := F) P) (val_main_v16 (F := F) T) (val_main_v31 (F := F) P T) := rfl

end Cert.Loss.RefTail

end
-- ==== Proof.PreDecode.lean ====
/-
  The precondition read back: when it holds (it is the word 1), every logit is a real number and
  every label word, read unsigned, is below 23.

  The precondition is the conjunction of two conjunctions over all elements: of `|x| < +∞` over the logits,
  and of `0 ≤ t ∧ t < 23` (signed) over the label words. A conjunction over all elements that is 1 met 1 at
  every element. An extended real whose absolute value `max x (-x)` is below `+∞` is neither infinity, so
  it is a real number. A 32-bit word that is at least 0 signed has its top bit clear, so it reads the same
  signed and unsigned, and being below 23 signed it is below 23 unsigned.
-/
import proofs.«421351_j10479720202819_2_alg».proof.Pre_finite_inputs
import Idealize.ShloMosaic.PureOps.Ideal
import Idealize.ShloMosaic.Lib.ReduceAll
import Idealize.ShloMosaic.Lib.StableHlo.Predicate
import Idealize.ShloMosaic.Lib.ValueIdx
import Mathlib.Data.EReal.Basic

noncomputable section

namespace Cert.Loss.Pre

open Idealize.ShloMosaic Idealize.ShloMosaic.ValueIdx

variable [Cert.Pre_finite_inputs.Facts]

/-- The rank-0 shape has one index. -/
instance : Subsingleton Cert.Pre_finite_inputs.S_.Idx := ⟨fun a b => funext fun d => d.elim0⟩

/-- A conjunction of two one-bit words is 1 exactly when both are. -/
theorem and1 : ∀ a b : BitVec 1, IntOp.andi a b = 1#1 ↔ a = 1#1 ∧ b = 1#1 := by decide

/-- The f32 pattern with all exponent bits set and no fraction bit is `+∞`. -/
theorem ofBits_inf : Ideal.ofBits .f32 0x7F800000#32 = (⊤ : EReal) := by simp [Ideal.ofBits, Ideal.ieee]

/-- An extended real with `max x (-x) < +∞` is a real number. -/
theorem real_of_abs_lt_top (x : EReal) (h : Ideal.cmp .olt (max x (-x)) (⊤ : EReal) = 1#1) :
    ∃ r : ℝ, x = (r : EReal) := by
  unfold Ideal.cmp at h
  have h' : max x (-x) < (⊤ : EReal) := by
    have h2 := (StableHlo.Predicate.ofBool_eq_one_iff _).1 h
    exact of_decide_eq_true h2
  rw [max_lt_iff] at h'
  induction x using EReal.rec with
  | bot => exact absurd h'.2 (by simp)
  | coe r => exact ⟨r, rfl⟩
  | top => exact absurd h'.1 (by simp)

/-- A word in [0, 23) signed is below 23 unsigned. -/
theorem toNat_lt_of_signed (w : BitVec 32) (h0 : IntOp.cmpi .sge w 0#32 = 1#1)
    (h1 : IntOp.cmpi .slt w 23#32 = 1#1) : w.toNat < 23 := by
  have hw : w.toNat < 2 ^ 31 := by
    unfold IntOp.cmpi at h0
    have h2 := (StableHlo.Predicate.ofBool_eq_one_iff _).1 h0
    simp only [BitVec.sle, decide_eq_true_eq] at h2
    have hz : (0#32 : BitVec 32).toInt = 0 := by decide
    rw [hz, BitVec.toInt_eq_toNat_cond] at h2
    have hlt := w.isLt
    split at h2 <;> omega
  have h3 := (StableHlo.Predicate.slt_iff_toNat hw (by decide)).1 h1
  exact h3

/-- THE PRECONDITION DECODED: every logit a real number, every label word below 23. -/
theorem decode (P : FVec Ideal Cert.Pre_finite_inputs.S8x23x512x512 .f32)
    (T : IVec Cert.Pre_finite_inputs.S8x1x512x512 32)
    (h : Cert.Pre_finite_inputs.fn (F := Ideal) P T = fun _ => 1#1) :
    (∀ i, ∃ r : ℝ, P i = (r : EReal)) ∧ (∀ i, (T i).toNat < 23) := by
  have e := congrFun h ix0
  dsimp only [Cert.Pre_finite_inputs.fn] at e
  obtain ⟨e1, e2⟩ := (and1 _ _).1 e
  refine ⟨fun i => ?_, fun i => ?_⟩
  · have a := Host.reduce_andi_all _ _ _ _ ix0 e1 i
    have a' : Ideal.cmp .olt (max (P i : EReal) (-(P i : EReal))) (Ideal.ofBits .f32 0x7F800000#32) = 1#1 := a
    rw [ofBits_inf] at a'
    exact real_of_abs_lt_top _ a'
  · have a := Host.reduce_andi_all _ _ _ _ ix0 e2 i
    obtain ⟨a0, a1⟩ := (and1 _ _).1 a
    exact toNat_lt_of_signed (T i) a0 a1

end Cert.Loss.Pre

end
-- ==== Proof.Claims.lean ====
/-
  The claims. At the extended reals both programs end at the same chain of operations of four statistics: the
  kernel's are sums over batch elements, bands and band pixels of per-pixel terms with the log-probability spelt
  p - (log S + M); the reference's are sums over pixels (a scatter-add by label, a sum over three axes, a sum of a
  gather) with it spelt (p - M) - log S. The precondition makes every logit a real number, where the two
  spellings agree, and every label a class index, where the gather and the scatter-add read and land where the
  kernel's one-hot weights are 1.
-/
import proofs.«421351_j10479720202819_2_alg».proof.Defs
import proofs.«421351_j10479720202819_2_alg».proof.Proof.Gen.Kernel.Frame
import proofs.«421351_j10479720202819_2_alg».proof.Proof.Gen.Pre_finite_inputs
import proofs.«421351_j10479720202819_2_alg».proof.Proof.KernelStats
import proofs.«421351_j10479720202819_2_alg».proof.Proof.RefRunP
import proofs.«421351_j10479720202819_2_alg».proof.Proof.RefStats
import proofs.«421351_j10479720202819_2_alg».proof.Proof.RefTail
import proofs.«421351_j10479720202819_2_alg».proof.Proof.PreDecode
import proofs.«421351_j10479720202819_2_alg».proof.Proof.LogProb

noncomputable section

open Idealize.ShloMosaic Idealize.ShloMosaic.TcCoe Idealize.SL.Sem

namespace Cert.Proof.LossClaims

open Cert.Loss

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- With every logit real the two spellings of the log-probability agree at every pixel. -/
theorem lp_eq (P : SP.Idx → EReal) (hfin : ∀ i, ∃ r : ℝ, P i = (r : EReal)) (b : Fin 8) (h w : Fin 512) :
    lpRv (px P b h w) = lpKv (px P b h w) :=
  (lpKv_eq_lpRv _ fun cls => hfin _).symm

theorem algebraic : Cert.algebraic_KernelIdeal_ReferenceIdeal := by
  intro m ρ m' ρ' hpre hagree
  refine ⟨fun c => Cert.KernelIdeal.Run.lossOf (Cert.KernelIdeal.Arr.outArr m c), Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hlab⟩ := Cert.Loss.Pre.decode _ _ (hpre c)
  show Cert.ReferenceIdeal.ValueP.res_main_v36 m' c = Cert.KernelIdeal.Run.lossOf (Cert.KernelIdeal.Arr.outArr m c)
  rw [Cert.ReferenceIdeal.ReadP.val_main_v36_eq, (hagree c).1, (hagree c).2, Cert.Loss.RefTail.val_eq,
    Cert.Loss.Ref.inter_eq _ _ hlab, Cert.Loss.Ref.sump_eq, Cert.Loss.Ref.cnt_eq _ hlab, Cert.Loss.Ref.ce_eq _ _ hlab,
    Cert.KernelIdeal.Stats.lossOf_eq]
  simp only [inter, sump, ce, lp_eq _ hfin]

end Cert.Proof.LossClaims

end
-- ==== Proof.lean ====
/-
  The certificate of the combined dice + cross-entropy loss: a Pallas kernel that accumulates, per batch element
  and row band, four rows of per-class statistics of a log-softmax (intersection, probability mass, label count,
  cross-entropy), followed by a few host operations, against the jnp reference that computes the same statistics
  by a gather and segment sums. The three frames, the (empty) idealization ledger, and the equality of the two
  results over the extended reals under the precondition: every logit finite and every label in [0, 23).
-/
import proofs.«421351_j10479720202819_2_alg».proof.Defs
import proofs.«421351_j10479720202819_2_alg».proof.Proof.Gen.Kernel
import proofs.«421351_j10479720202819_2_alg».proof.Proof.Gen.Kernel.Skeleton
import proofs.«421351_j10479720202819_2_alg».proof.Proof.Gen.Kernel.Launch
import proofs.«421351_j10479720202819_2_alg».proof.Proof.Gen.Kernel.Points
import proofs.«421351_j10479720202819_2_alg».proof.Proof.Gen.Kernel.Frame
import proofs.«421351_j10479720202819_2_alg».proof.Proof.Gen.KernelIdeal
import proofs.«421351_j10479720202819_2_alg».proof.Proof.Gen.KernelIdeal.Skeleton
import proofs.«421351_j10479720202819_2_alg».proof.Proof.Gen.KernelIdeal.Launch
import proofs.«421351_j10479720202819_2_alg».proof.Proof.Gen.KernelIdeal.Points
import proofs.«421351_j10479720202819_2_alg».proof.Proof.Gen.KernelIdeal.Frame
import proofs.«421351_j10479720202819_2_alg».proof.Proof.Gen.ReferenceIdeal
import proofs.«421351_j10479720202819_2_alg».proof.Proof.Gen.Pre_finite_inputs
import proofs.«421351_j10479720202819_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  LossClaims.frame_k, LossClaims.frame_ki, LossClaims.frame_ri, LossClaims.preserves, LossClaims.algebraic⟩

end Cert.Proof

end
